-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1152x32 : Shape := ⟨3, ![32, 1152, 32]⟩
abbrev S64x32x32 : Shape := ⟨3, ![64, 32, 32]⟩
abbrev S_ : Shape := ⟨0, ![]⟩

class Facts : Prop where
  bcast_S_S32x1152x32 : S_.BroadcastsInDim S32x1152x32 (![] : Fin 0 → Fin S32x1152x32.rank)
  reducesTo_S32x1152x32_S_d0_1_2 : S32x1152x32.ReducesTo [0, 1, 2] S_
  h_S_ : 0 < S_.numel
  bcast_S_S64x32x32 : S_.BroadcastsInDim S64x32x32 (![] : Fin 0 → Fin S64x32x32.rank)
  reducesTo_S64x32x32_S_d0_1_2 : S64x32x32.ReducesTo [0, 1, 2] S_

variable [Facts]

def fn {F : FTy → Type} [FloatOps F] (main_arg0 : FVec F S32x1152x32 .f32) (main_arg1 : FVec F S64x32x32 .f32) : IVec S_ 1 :=
  let main_v0 : FVec F S32x1152x32 .f32 := Host.absf main_arg0
  let main_cst : FVec F S_ .f32 := constant S_ .f32 0x7F800000#32
  let main_v1 : FVec F S32x1152x32 .f32 := broadcastInDim S32x1152x32 ![] bcast_S_S32x1152x32 main_cst
  let main_v2 : IVec S32x1152x32 1 := cmpf .olt main_v0 main_v1
  let main_c : IVec S_ 1 := constantI S_ 1 1#1
  let main_v3 : IVec S_ 1 := (fun x v => Host.reduce IntOp.andi x v reducesTo_S32x1152x32_S_d0_1_2 h_S_) main_v2 main_c
  let main_v4 : FVec F S64x32x32 .f32 := Host.absf main_arg1
  let main_cst_0 : FVec F S_ .f32 := constant S_ .f32 0x7F800000#32
  let main_v5 : FVec F S64x32x32 .f32 := broadcastInDim S64x32x32 ![] bcast_S_S64x32x32 main_cst_0
  let main_v6 : IVec S64x32x32 1 := cmpf .olt main_v4 main_v5
  let main_c_1 : IVec S_ 1 := constantI S_ 1 1#1
  let main_v7 : IVec S_ 1 := (fun x v => Host.reduce IntOp.andi x v reducesTo_S64x32x32_S_d0_1_2 h_S_) main_v6 main_c_1
  let main_v8 : IVec S_ 1 := andi main_v3 main_v7
  main_v8
-- ==== Kernel.lean ====
abbrev S32x1152x32 : Shape := ⟨3, ![32, 1152, 32]⟩
abbrev S64x32x32 : Shape := ⟨3, ![64, 32, 32]⟩
abbrev S2048x32 : Shape := ⟨2, ![2048, 32]⟩
abbrev S32x64x32 : Shape := ⟨3, ![32, 64, 32]⟩
abbrev S1x1152x32 : Shape := ⟨3, ![1, 1152, 32]⟩
abbrev S1x64x32 : Shape := ⟨3, ![1, 64, 32]⟩
abbrev S1152x32 : Shape := ⟨2, ![1152, 32]⟩
abbrev S2048x1152 : Shape := ⟨2, ![2048, 1152]⟩
abbrev S64x32x1152 : Shape := ⟨3, ![64, 32, 1152]⟩
abbrev S64x1152 : Shape := ⟨2, ![64, 1152]⟩
abbrev S1152 : Shape := ⟨1, ![1152]⟩
abbrev S1x1152 : Shape := ⟨2, ![1, 1152]⟩
abbrev S64x1x1152 : Shape := ⟨3, ![64, 1, 1152]⟩
abbrev S64x32 : Shape := ⟨2, ![64, 32]⟩
abbrev S64 : Shape := ⟨1, ![64]⟩
abbrev S64x1 : Shape := ⟨2, ![64, 1]⟩
abbrev S64x32x1 : Shape := ⟨3, ![64, 32, 1]⟩

abbrev nBuf : Space → Nat
  | .hbm => 4
  | .vmem => 5
  | .smem => 0
  | _ => 0

abbrev bufTy : (tb : Table) → Fin (tcTables nBuf tb) → BufTy
  | .hbm, ⟨0, _⟩ => ⟨S32x1152x32, .f32⟩
  | .hbm, ⟨1, _⟩ => ⟨S64x32x32, .f32⟩
  | .hbm, ⟨2, _⟩ => ⟨S2048x32, .f32⟩
  | .hbm, ⟨3, _⟩ => ⟨S32x64x32, .f32⟩
  | .local _ .vmem, ⟨0, _⟩ => ⟨S1x1152x32, .f32⟩
  | .local _ .vmem, ⟨1, _⟩ => ⟨S1x1152x32, .f32⟩
  | .local _ .vmem, ⟨2, _⟩ => ⟨S2048x32, .f32⟩
  | .local _ .vmem, ⟨3, _⟩ => ⟨S1x64x32, .f32⟩
  | .local _ .vmem, ⟨4, _⟩ => ⟨S1x64x32, .f32⟩
  | _, _ => ⟨S32x1152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1152x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x32x32_S2048x32 : S64x32x32.ShapeCasts S2048x32
  inb_S1x1152x32_S1x1152x32_0_0_0 : ∀ a, (![0, 0, 0] : Fin 3 → Nat) a + S1x1152x32.size a ≤ S1x1152x32.size a
  h_S1x1152x32 : 0 < S1x1152x32.numel
  shapeCasts_S1x1152x32_S1152x32 : S1x1152x32.ShapeCasts S1152x32
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S2048x1152_S64x32x1152 : S2048x1152.ShapeCasts S64x32x1152
  reduces_S64x1152_S1152 : S64x1152.Reduces [0] S1152
  shapeCasts_S1152_S1x1152 : S1152.ShapeCasts S1x1152
  broadcasts_S1x1152_S64x1152 : S1x1152.Broadcasts S64x1152
  shapeCasts_S64x1152_S64x1x1152 : S64x1152.ShapeCasts S64x1x1152
  broadcasts_S64x1x1152_S64x32x1152 : S64x1x1152.Broadcasts S64x32x1152
  reduces_S64x32x1152_S64x32 : S64x32x1152.Reduces [2] S64x32
  reduces_S64x32_S64 : S64x32.Reduces [1] S64
  shapeCasts_S64_S64x1 : S64.ShapeCasts S64x1
  broadcasts_S64x1_S64x32 : S64x1.Broadcasts S64x32
  shapeCasts_S64x32_S64x32x1 : S64x32.ShapeCasts S64x32x1
  broadcasts_S64x32x1_S64x32x1152 : S64x32x1.Broadcasts S64x32x1152
  reduces_S64x32x1152_S64x1152 : S64x32x1152.Reduces [1] S64x1152
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S1x64x32 : S64x32.ShapeCasts S1x64x32
  dot_S2048x32_S1152x32_S2048x1152_1_1_0_0_n_n_wf : DotDims.WF S2048x32 S1152x32 S2048x1152 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1152x32.size a ≤ S32x1152x32.size a
  hwx0_0 : ∀ i : grid0.Coords, EltTy.bits .f32 = 32 ∨ (Rect.block (s := S32x1152x32) S1x1152x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S2048x32.size a
  hwx0_1 : ∀ i : grid0.Coords, EltTy.bits .f32 = 32 ∨ (Rect.block (s := S2048x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32.size a ≤ S32x64x32.size a
  hwx0_2 : ∀ i : grid0.Coords, EltTy.bits .f32 = 32 ∨ (Rect.block (s := S32x64x32) S1x64x32.size (cc0_transform_2 i) (hinb0_2 i)).WholeWords (EltTy.packing .f32)

variable [Facts₀]

def dot_S2048x32_S1152x32_S2048x1152_1_1_0_0_n_n : DotDims S2048x32 S1152x32 S2048x1152 where
  lhsContracting := [1]
  rhsContracting := [1]
  lhsNonContracting := [0]
  rhsNonContracting := [0]
  lhsBatch := []
  rhsBatch := []
  wf := dot_S2048x32_S1152x32_S2048x1152_1_1_0_0_n_n_wf

abbrev win0_0 : Pipeline.Window sig grid0 :=
  Pipeline.Window.ofSpec (Memref.whole main_arg0) S1x1152x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1152x32 : Shape := ⟨3, ![32, 1152, 32]⟩
abbrev S64x32x32 : Shape := ⟨3, ![64, 32, 32]⟩
abbrev S32x1152x64x32 : Shape := ⟨4, ![32, 1152, 64, 32]⟩
abbrev S32x64x1152x32 : Shape := ⟨4, ![32, 64, 1152, 32]⟩
abbrev S_ : Shape := ⟨0, ![]⟩
abbrev S32x1x1152x32 : Shape := ⟨4, ![32, 1, 1152, 32]⟩
abbrev S32x64x32 : Shape := ⟨3, ![32, 64, 32]⟩
abbrev S32x64x1x32 : Shape := ⟨4, ![32, 64, 1, 32]⟩
abbrev S32x64x1 : Shape := ⟨3, ![32, 64, 1]⟩
abbrev S32x64x1x1 : Shape := ⟨4, ![32, 64, 1, 1]⟩
abbrev S32x64x1152 : Shape := ⟨3, ![32, 64, 1152]⟩
abbrev S32x64x1152x1 : Shape := ⟨4, ![32, 64, 1152, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x1152x32, .f32⟩
  | .hbm, ⟨1, _⟩ => ⟨S64x32x32, .f32⟩
  | .hbm, ⟨2, _⟩ => ⟨S32x1152x64x32, .f32⟩
  | .hbm, ⟨3, _⟩ => ⟨S32x64x1152x32, .f32⟩
  | .hbm, ⟨4, _⟩ => ⟨S_, .f32⟩
  | .hbm, ⟨5, _⟩ => ⟨S32x64x1152x32, .f32⟩
  | .hbm, ⟨6, _⟩ => ⟨S_, .f32⟩
  | .hbm, ⟨7, _⟩ => ⟨S32x1152x32, .f32⟩
  | .hbm, ⟨8, _⟩ => ⟨S_, .f32⟩
  | .hbm, ⟨9, _⟩ => ⟨S32x1152x32, .f32⟩
  | .hbm, ⟨10, _⟩ => ⟨S32x1152x32, .f32⟩
  | .hbm, ⟨11, _⟩ => ⟨S32x1x1152x32, .f32⟩
  | .hbm, ⟨12, _⟩ => ⟨S32x64x1152x32, .f32⟩
  | .hbm, ⟨13, _⟩ => ⟨S32x64x1152x32, .f32⟩
  | .hbm, ⟨14, _⟩ => ⟨S32x64x1152x32, .f32⟩
  | .hbm, ⟨15, _⟩ => ⟨S_, .f32⟩
  | .hbm, ⟨16, _⟩ => ⟨S32x1152x32, .f32⟩
  | .hbm, ⟨17, _⟩ => ⟨S32x1x1152x32, .f32⟩
  | .hbm, ⟨18, _⟩ => ⟨S32x64x1152x32, .f32⟩
  | .hbm, ⟨19, _⟩ => ⟨S32x64x1152x32, .f32⟩
  | .hbm, ⟨20, _⟩ => ⟨S32x64x1152x32, .f32⟩
  | .hbm, ⟨21, _⟩ => ⟨S_, .f32⟩
  | .hbm, ⟨22, _⟩ => ⟨S32x64x32, .f32⟩
  | .hbm, ⟨23, _⟩ => ⟨S32x64x1x32, .f32⟩
  | .hbm, ⟨24, _⟩ => ⟨S32x64x1x32, .f32⟩
  | .hbm, ⟨25, _⟩ => ⟨S_, .f32⟩
  | .hbm, ⟨26, _⟩ => ⟨S32x64x1, .f32⟩
  | .hbm, ⟨27, _⟩ => ⟨S32x64x1x1, .f32⟩
  | .hbm, ⟨28, _⟩ => ⟨S32x64x1x1, .f32⟩
  | .hbm, ⟨29, _⟩ => ⟨S32x64x1x32, .f32⟩
  | .hbm, ⟨30, _⟩ => ⟨S32x64x1x32, .f32⟩
  | .hbm, ⟨31, _⟩ => ⟨S_, .f32⟩
  | .hbm, ⟨32, _⟩ => ⟨S32x64x1x1, .f32⟩
  | .hbm, ⟨33, _⟩ => ⟨S32x64x1x1, .f32⟩
  | .hbm, ⟨34, _⟩ => ⟨S32x64x1x32, .f32⟩
  | .hbm, ⟨35, _⟩ => ⟨S32x64x1x32, .f32⟩
  | .hbm, ⟨36, _⟩ => ⟨S32x64x1152x32, .f32⟩
  | .hbm, ⟨37, _⟩ => ⟨S32x64x1152x32, .f32⟩
  | .hbm, ⟨38, _⟩ => ⟨S_, .f32⟩
  | .hbm, ⟨39, _⟩ => ⟨S32x64x1152, .f32⟩
  | .hbm, ⟨40, _⟩ => ⟨S32x64x1152x1, .f32⟩
  | .hbm, ⟨41, _⟩ => ⟨S32x64x1152x32, .f32⟩
  | .hbm, ⟨42, _⟩ => ⟨S32x64x1152x32, .f32⟩
  | .hbm, ⟨43, _⟩ => ⟨S_, .f32⟩
  | .hbm, ⟨44, _⟩ => ⟨S32x1152x32, .f32⟩
  | .hbm, ⟨45, _⟩ => ⟨S_, .f32⟩
  | .hbm, ⟨46, _⟩ => ⟨S32x1152x32, .f32⟩
  | .hbm, ⟨47, _⟩ => ⟨S32x1152x32, .f32⟩
  | .hbm, ⟨48, _⟩ => ⟨S32x1x1152x32, .f32⟩
  | .hbm, ⟨49, _⟩ => ⟨S32x64x1152x32, .f32⟩
  | .hbm, ⟨50, _⟩ => ⟨S32x64x1152x32, .f32⟩
  | .hbm, ⟨51, _⟩ => ⟨S32x64x1152x32, .f32⟩
  | .hbm, ⟨52, _⟩ => ⟨S_, .f32⟩
  | .hbm, ⟨53, _⟩ => ⟨S32x1152x32, .f32⟩
  | .hbm, ⟨54, _⟩ => ⟨S32x1x1152x32, .f32⟩
  | .hbm, ⟨55, _⟩ => ⟨S32x64x1152x32, .f32⟩
  | .hbm, ⟨56, _⟩ => ⟨S32x64x1152x32, .f32⟩
  | .hbm, ⟨57, _⟩ => ⟨S32x64x1152x32, .f32⟩
  | .hbm, ⟨58, _⟩ => ⟨S_, .f32⟩
  | .hbm, ⟨59, _⟩ => ⟨S32x64x32, .f32⟩
  | .hbm, ⟨60, _⟩ => ⟨S32x64x1x32, .f32⟩
  | .hbm, ⟨61, _⟩ => ⟨S32x64x1x32, .f32⟩
  | .hbm, ⟨62, _⟩ => ⟨S_, .f32⟩
  | .hbm, ⟨63, _⟩ => ⟨S32x64x1, .f32⟩
  | .hbm, ⟨64, _⟩ => ⟨S32x64x1x1, .f32⟩
  | .hbm, ⟨65, _⟩ => ⟨S32x64x1x1, .f32⟩
  | .hbm, ⟨66, _⟩ => ⟨S32x64x1x32, .f32⟩
  | .hbm, ⟨67, _⟩ => ⟨S32x64x1x32, .f32⟩
  | .hbm, ⟨68, _⟩ => ⟨S_, .f32⟩
  | .hbm, ⟨69, _⟩ => ⟨S32x64x1x1, .f32⟩
  | .hbm, ⟨70, _⟩ => ⟨S32x64x1x1, .f32⟩
  | .hbm, ⟨71, _⟩ => ⟨S32x64x1x32, .f32⟩
  | .hbm, ⟨72, _⟩ => ⟨S32x64x1x32, .f32⟩
  | .hbm, ⟨73, _⟩ => ⟨S32x64x1152x32, .f32⟩
  | .hbm, ⟨74, _⟩ => ⟨S32x64x1152x32, .f32⟩
  | .hbm, ⟨75, _⟩ => ⟨S_, .f32⟩
  | .hbm, ⟨76, _⟩ => ⟨S32x64x1152, .f32⟩
  | .hbm, ⟨77, _⟩ => ⟨S32x64x1152x1, .f32⟩
  | .hbm, ⟨78, _⟩ => ⟨S32x64x1152x32, .f32⟩
  | .hbm, ⟨79, _⟩ => ⟨S32x64x1152x32, .f32⟩
  | .hbm, ⟨80, _⟩ => ⟨S_, .f32⟩
  | .hbm, ⟨81, _⟩ => ⟨S32x1152x32, .f32⟩
  | .hbm, ⟨82, _⟩ => ⟨S_, .f32⟩
  | .hbm, ⟨83, _⟩ => ⟨S32x1152x32, .f32⟩
  | .hbm, ⟨84, _⟩ => ⟨S32x1152x32, .f32⟩
  | .hbm, ⟨85, _⟩ => ⟨S32x1x1152x32, .f32⟩
  | .hbm, ⟨86, _⟩ => ⟨S32x64x1152x32, .f32⟩
  | .hbm, ⟨87, _⟩ => ⟨S32x64x1152x32, .f32⟩
  | .hbm, ⟨88, _⟩ => ⟨S32x64x1152x32, .f32⟩
  | .hbm, ⟨89, _⟩ => ⟨S_, .f32⟩
  | .hbm, ⟨90, _⟩ => ⟨S32x1152x32, .f32⟩
  | .hbm, ⟨91, _⟩ => ⟨S32x1x1152x32, .f32⟩
  | .hbm, ⟨92, _⟩ => ⟨S32x64x1152x32, .f32⟩
  | .hbm, ⟨93, _⟩ => ⟨S32x64x1152x32, .f32⟩
  | .hbm, ⟨94, _⟩ => ⟨S32x64x1152x32, .f32⟩
  | .hbm, ⟨95, _⟩ => ⟨S_, .f32⟩
  | .hbm, ⟨96, _⟩ => ⟨S32x64x32, .f32⟩
  | .hbm, ⟨97, _⟩ => ⟨S32x64x1x32, .f32⟩
  | .hbm, ⟨98, _⟩ => ⟨S32x64x1x32, .f32⟩
  | .hbm, ⟨99, _⟩ => ⟨S_, .f32⟩
  | .hbm, ⟨100, _⟩ => ⟨S32x64x1, .f32⟩
  | .hbm, ⟨101, _⟩ => ⟨S32x64x1x1, .f32⟩
  | .hbm, ⟨102, _⟩ => ⟨S32x64x1x1, .f32⟩
  | .hbm, ⟨103, _⟩ => ⟨S32x64x1x32, .f32⟩
  | .hbm, ⟨104, _⟩ => ⟨S32x64x1x32, .f32⟩
  | .hbm, ⟨105, _⟩ => ⟨S_, .f32⟩
  | .hbm, ⟨106, _⟩ => ⟨S32x64x1x1, .f32⟩
  | .hbm, ⟨107, _⟩ => ⟨S32x64x1x1, .f32⟩
  | .hbm, ⟨108, _⟩ => ⟨S32x64x1x32, .f32⟩
  | .hbm, ⟨109, _⟩ => ⟨S32x64x1x32, .f32⟩
  | .hbm, ⟨110, _⟩ => ⟨S32x64x32, .f32⟩
  | _, _ => ⟨S32x1152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_cst_15 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_19 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]

class Facts₀ : Prop where
  transposes_S32x1152x64x32_S32x64x1152x32_0_2_1_3 : S32x1152x64x32.Transposes [0, 2, 1, 3] S32x64x1152x32
  bcast_S_S32x64x1152x32 : S_.BroadcastsInDim S32x64x1152x32 (![] : Fin 0 → Fin S32x64x1152x32.rank)
  reducesTo_S32x64x1152x32_S32x1152x32_d1 : S32x64x1152x32.ReducesTo [1] S32x1152x32
  h_S_ : 0 < S_.numel
  bcast_S_S32x1152x32 : S_.BroadcastsInDim S32x1152x32 (![] : Fin 0 → Fin S32x1152x32.rank)
  bcast_S32x1152x32_S32x1x1152x32_0_2_3 : S32x1152x32.BroadcastsInDim S32x1x1152x32 (![0, 2, 3] : Fin 3 → Fin S32x1x1152x32.rank)
  bcast_S32x1x1152x32_S32x64x1152x32_0_1_2_3 : S32x1x1152x32.BroadcastsInDim S32x64x1152x32 (![0, 1, 2, 3] : Fin 4 → Fin S32x64x1152x32.rank)
  reducesTo_S32x64x1152x32_S32x64x32_d2 : S32x64x1152x32.ReducesTo [2] S32x64x32
  bcast_S32x64x32_S32x64x1x32_0_1_3 : S32x64x32.BroadcastsInDim S32x64x1x32 (![0, 1, 3] : Fin 3 → Fin S32x64x1x32.rank)
  reducesTo_S32x64x1x32_S32x64x1_d3 : S32x64x1x32.ReducesTo [3] S32x64x1
  bcast_S32x64x1_S32x64x1x1_0_1_2 : S32x64x1.BroadcastsInDim S32x64x1x1 (![0, 1, 2] : Fin 3 → Fin S32x64x1x1.rank)
  bcast_S32x64x1x1_S32x64x1x32_0_1_2_3 : S32x64x1x1.BroadcastsInDim S32x64x1x32 (![0, 1, 2, 3] : Fin 4 → Fin S32x64x1x32.rank)
  bcast_S_S32x64x1x1 : S_.BroadcastsInDim S32x64x1x1 (![] : Fin 0 → Fin S32x64x1x1.rank)
  bcast_S32x64x1x32_S32x64x1152x32_0_1_2_3 : S32x64x1x32.BroadcastsInDim S32x64x1152x32 (![0, 1, 2, 3] : Fin 4 → Fin S32x64x1152x32.rank)
  reducesTo_S32x64x1152x32_S32x64x1152_d3 : S32x64x1152x32.ReducesTo [3] S32x64x1152
  bcast_S32x64x1152_S32x64x1152x1_0_1_2 : S32x64x1152.BroadcastsInDim S32x64x1152x1 (![0, 1, 2] : Fin 3 → Fin S32x64x1152x1.rank)
  bcast_S32x64x1152x1_S32x64x1152x32_0_1_2_3 : S32x64x1152x1.BroadcastsInDim S32x64x1152x32 (![0, 1, 2, 3] : Fin 4 → Fin S32x64x1152x32.rank)
  shapeCasts_S32x64x1x32_S32x64x32 : S32x64x1x32.ShapeCasts S32x64x32
  dot_S32x1152x32_S64x32x32_S32x1152x64x32_2_2_01_01_n_n_wf : DotDims.WF S32x1152x32 S64x32x32 S32x1152x64x32 [2] [2] [0, 1] [0, 1] [] []

variable [Facts₀]

def dot_S32x1152x32_S64x32x32_S32x1152x64x32_2_2_01_01_n_n : DotDims S32x1152x32 S64x32x32 S32x1152x64x32 where
  lhsContracting := [2]
  rhsContracting := [2]
  lhsNonContracting := [0, 1]
  rhsNonContracting := [0, 1]
  lhsBatch := []
  rhsBatch := []
  wf := dot_S32x1152x32_S64x32x32_S32x1152x64x32_2_2_01_01_n_n_wf

class Facts : Prop extends Facts₀ where

variable [Facts]
-- ==== Proof.KernelStages.lean ====
/-
  The kernel body's three routing rounds as array-level stages, each ONE function of the arrays it reads.

  One grid point holds one batch item: the votes are laid [o, l, n] (output capsule, output coordinate, input capsule),
  the logits [o, n], the capsules [o, l]. A round is `colTop` (each column's largest logit over the output capsules, as
  a row), `shifted` (the logits minus it, exponentiated), `capsules` (the softmax quotient times the votes, summed over
  the input capsules), `sqLen` (each capsule's squared length, as a column), `squashed` (`O · √N / (1 + N)`) and
  `updated` (the logits plus each vote's inner product with the squashed capsule). The body's stored block is the third
  round's squashed capsules after two whole rounds from zero logits: `block_eq`, by unfolding the body's terms.
-/
import proofs.«128484_j6184752906707_1_alg».proof.Proof.Gen.KernelIdeal.Skeleton

set_option maxRecDepth 8192

noncomputable section

namespace Cert.KernelIdeal.Stages

open Cert.KernelIdeal Cert.KernelIdeal.Gen Idealize.ShloMosaic Idealize.ShloMosaic.TcCoe

variable {F : FTy → Type} [FloatOps F]

/-- The logits the routing starts from: zero everywhere. -/
def logits0 : FVec F S64x1152 .f32 := broadcast S64x1152 (Scalar.ofBits .f32 0x00000000#32)

/-- Each column's largest logit over the output capsules, folded from `-∞` and set against `-∞` once more; a row [1, n]. -/
def colTop (L : FVec F S64x1152 .f32) : FVec F S1x1152 .f32 :=
  shapeCast S1x1152 (maximumf (broadcast S1152 (Scalar.ofBits .f32 0xFF800000#32)) (multiReduction .maximumf [0] S1152 L 0xFF800000#32 reduces_S64x1152_S1152 (.inl rfl) rfl)) shapeCasts_S1152_S1x1152

/-- `exp (L − M)`, the row `M` repeated down the output capsules. -/
def shifted (L : FVec F S64x1152 .f32) (M : FVec F S1x1152 .f32) : FVec F S64x1152 .f32 :=
  exp (subf L (broadcastTo S64x1152 M broadcasts_S1x1152_S64x1152))

/-- The capsules of a round: the votes `P` times the shifted exponentials `E` over their column sums, summed over the
    input capsules. -/
def capsules (P : FVec F S64x32x1152 .f32) (E : FVec F S64x1152 .f32) : FVec F S64x32 .f32 :=
  multiReduction .add [2] S64x32 (mulf P (broadcastTo S64x32x1152 (shapeCast S64x1x1152 (divf E (broadcastTo S64x1152 (shapeCast S1x1152 (multiReduction .add [0] S1152 E 0x00000000#32 reduces_S64x1152_S1152 (.inl rfl) rfl) shapeCasts_S1152_S1x1152) broadcasts_S1x1152_S64x1152)) shapeCasts_S64x1152_S64x1x1152) broadcasts_S64x1x1152_S64x32x1152)) 0x00000000#32 reduces_S64x32x1152_S64x32 (.inl rfl) rfl

/-- Each capsule's squared length; a column [o, 1]. -/
def sqLen (O : FVec F S64x32 .f32) : FVec F S64x1 .f32 :=
  shapeCast S64x1 (multiReduction .add [1] S64 (mulf O O) 0x00000000#32 reduces_S64x32_S64 (.inl rfl) rfl) shapeCasts_S64_S64x1

/-- The squashed capsules `O · √N / (1 + N)`. -/
def squashed (O : FVec F S64x32 .f32) (N : FVec F S64x1 .f32) : FVec F S64x32 .f32 :=
  divf (mulf O (broadcastTo S64x32 (sqrt N) broadcasts_S64x1_S64x32)) (broadcastTo S64x32 (addf (broadcast S64x1 (Scalar.ofBits .f32 0x3F800000#32)) N) broadcasts_S64x1_S64x32)

/-- The logits after a round: each gains its vote's inner product, over the output coordinates, with the squashed capsule `S`. -/
def updated (P : FVec F S64x32x1152 .f32) (L : FVec F S64x1152 .f32) (S : FVec F S64x32 .f32) : FVec F S64x1152 .f32 :=
  addf L (multiReduction .add [1] S64x1152 (mulf P (broadcastTo S64x32x1152 (shapeCast S64x32x1 S shapeCasts_S64x32_S64x32x1) broadcasts_S64x32x1_S64x32x1152)) 0x00000000#32 reduces_S64x32x1152_S64x1152 (.inl rfl) rfl)

/-- The capsules under logits `L`. -/
def capsOf (P : FVec F S64x32x1152 .f32) (L : FVec F S64x1152 .f32) : FVec F S64x32 .f32 :=
  capsules P (shifted L (colTop L))

/-- One whole round on the logits. -/
def round (P : FVec F S64x32x1152 .f32) (L : FVec F S64x1152 .f32) : FVec F S64x1152 .f32 :=
  updated P L (squashed (capsOf P L) (sqLen (capsOf P L)))

/-- What the body stores, as the stages composed: the third round's squashed capsules, with a leading unit axis. -/
def stored (x : Vec F S1x1152x32 .f32) (w : Vec F S2048x32 .f32) : FVec F S1x64x32 .f32 :=
  shapeCast S1x64x32 (squashed (capsOf (k0_pay2 x w) (round (k0_pay2 x w) (round (k0_pay2 x w) logits0)))
    (sqLen (capsOf (k0_pay2 x w) (round (k0_pay2 x w) (round (k0_pay2 x w) logits0))))) shapeCasts_S64x32_S1x64x32

/-! ## The body's terms are these stages -/

theorem pay3_eq (x : Vec F S1x1152x32 .f32) (w : Vec F S2048x32 .f32) : k0_pay3 x w = round (k0_pay2 x w) logits0 := rfl
theorem pay4_eq (x : Vec F S1x1152x32 .f32) (w : Vec F S2048x32 .f32) : k0_pay4 x w = colTop (k0_pay3 x w) := rfl
theorem pay5_eq (P : FVec F S64x32x1152 .f32) (L : FVec F S64x1152 .f32) :
    k0_pay5 P L (colTop L) = capsOf P (round P L) := rfl
theorem pay6_eq (P : FVec F S64x32x1152 .f32) (L : FVec F S64x1152 .f32) (M : FVec F S1x1152 .f32) :
    k0_pay6 P L M = sqLen (k0_pay5 P L M) := rfl
theorem pay1_eq (P : FVec F S64x32x1152 .f32) (L : FVec F S64x1152 .f32) (M : FVec F S1x1152 .f32) :
    k0_pay1 (k0_pay7 P L M) (k0_pay8 P L M) = shapeCast S1x64x32 (squashed (k0_pay5 P L M) (k0_pay6 P L M)) shapeCasts_S64x32_S1x64x32 := rfl

/-- The block the body stores is the stages composed. -/
theorem block_eq (x : Vec F S1x1152x32 .f32) (w : Vec F S2048x32 .f32) :
    k0_pay1 (k0_pay7 (k0_pay2 x w) (k0_pay3 x w) (k0_pay4 x w)) (k0_pay8 (k0_pay2 x w) (k0_pay3 x w) (k0_pay4 x w)) = stored x w := by
  rw [pay1_eq, pay6_eq, pay4_eq, pay5_eq, pay3_eq]
  rfl

end Cert.KernelIdeal.Stages

end
-- ==== Proof.Routing.lean ====
/-
  Dynamic routing between capsules, three rounds, written once as a function on extended reals.

  For one batch item the programs hold the votes `P o l n = ∑ i, W o l i * X n i` (output capsule `o`, output
  coordinate `l`, input capsule `n`) and logits `L o n`, zero at the start. A round takes the softmax of the logits
  over the OUTPUT capsules (each column `n` shifted by its maximum, the maximum folded from `-∞`), sums the votes
  against these couplings over the input capsules, squashes each output capsule's vector `v` to
  `v · ‖v‖ / (1 + ‖v‖²)`, and adds to every logit the vote's inner product with the squashed vector. The result is
  the squashed capsules of the third round.

  Nothing here mentions a program: the kernel (one grid point per batch item, arrays laid [o, l, n]) and the reference
  (all batch items at once, arrays laid [b, o, n, l], the logits repeated along `l`) are each shown to compute
  `routedAll`; the two differ only in how the arrays are laid out and in the order of two products.
-/
import Idealize.ShloMosaic.PureOps.Ideal.Laws
import Idealize.ShloMosaic.Lib.ValueIdx

noncomputable section

namespace Cert.Routing

open Idealize.ShloMosaic Idealize.ShloMosaic.ValueIdx

/-- `-∞`, `0` and `1` as both programs write them: the same words on both sides, never evaluated. -/
abbrev negInf : EReal := Ideal.ofBits .f32 0xFF800000#32
abbrev zero : EReal := Ideal.ofBits .f32 0x00000000#32
abbrev one : EReal := Ideal.ofBits .f32 0x3F800000#32

/-- The vote of input capsule `n` for coordinate `l` of output capsule `o`. -/
def priors (W : Fin 64 → Fin 32 → Fin 32 → EReal) (X : Fin 1152 → Fin 32 → EReal)
    (o : Fin 64) (l : Fin 32) (n : Fin 1152) : EReal :=
  ∑ i : Fin 32, W o l i * X n i

/-- The largest logit of column `n`, folded from `-∞` (and once more set against `-∞`, as `jnp.max` with an
    initial value does). -/
def colMax (L : Fin 64 → Fin 1152 → EReal) (n : Fin 1152) : EReal :=
  max negInf ((Finset.univ : Finset (Fin 64)).fold max negInf (fun o => L o n))

/-- The shifted exponential of a logit. -/
def expo (L : Fin 64 → Fin 1152 → EReal) (o : Fin 64) (n : Fin 1152) : EReal :=
  Ideal.exp (L o n - colMax L n)

/-- The coupling of input capsule `n` to output capsule `o`: the softmax over the output capsules. -/
def coupling (L : Fin 64 → Fin 1152 → EReal) (o : Fin 64) (n : Fin 1152) : EReal :=
  Ideal.div (expo L o n) (∑ o' : Fin 64, expo L o' n)

/-- An output capsule before squashing: the votes summed against the couplings. -/
def caps (P : Fin 64 → Fin 32 → Fin 1152 → EReal) (L : Fin 64 → Fin 1152 → EReal) (o : Fin 64) (l : Fin 32) : EReal :=
  ∑ n : Fin 1152, P o l n * coupling L o n

/-- The squared length of capsule `o`. -/
def normSq (v : Fin 64 → Fin 32 → EReal) (o : Fin 64) : EReal :=
  ∑ l : Fin 32, v o l * v o l

/-- The squash: `v · ‖v‖ / (1 + ‖v‖²)`. -/
def squash (v : Fin 64 → Fin 32 → EReal) (o : Fin 64) (l : Fin 32) : EReal :=
  Ideal.div (v o l * Ideal.sqrt (normSq v o)) (one + normSq v o)

/-- The logits after a round: each gains the agreement of its vote with the squashed capsule. -/
def agree (P : Fin 64 → Fin 32 → Fin 1152 → EReal) (L : Fin 64 → Fin 1152 → EReal) (o : Fin 64) (n : Fin 1152) : EReal :=
  L o n + ∑ l : Fin 32, P o l n * squash (caps P L) o l

/-- The logits the routing starts from. -/
def logits0 : Fin 64 → Fin 1152 → EReal := fun _ _ => zero

/-- Three rounds: the squashed capsules under the logits two agreement updates leave. -/
def routed (P : Fin 64 → Fin 32 → Fin 1152 → EReal) : Fin 64 → Fin 32 → EReal :=
  squash (caps P (agree P (agree P logits0)))

/-- The whole result array [32, 64, 32] of the argument arrays `x : [32, 1152, 32]` and `w : [64, 32, 32]`. -/
def routedAll (x : (⟨3, ![32, 1152, 32]⟩ : Shape).Idx → EReal) (w : (⟨3, ![64, 32, 32]⟩ : Shape).Idx → EReal) :
    (⟨3, ![32, 64, 32]⟩ : Shape).Idx → EReal :=
  fun j => routed (priors (fun o l i => w (ix3 o l i)) (fun n i => x (ix3 (j 0) n i))) (j 1) (j 2)

theorem routedAll_apply (x : (⟨3, ![32, 1152, 32]⟩ : Shape).Idx → EReal) (w : (⟨3, ![64, 32, 32]⟩ : Shape).Idx → EReal)
    (b : Fin 32) (o : Fin 64) (l : Fin 32) :
    routedAll x w (ix3 b o l) = routed (priors (fun o l i => w (ix3 o l i)) (fun n i => x (ix3 b n i))) o l := rfl

end Cert.Routing

end
-- ==== Proof.LibAxisForms.lean ====
/-
  RE-LAYOUTS AND ONE-AXIS REDUCTIONS READ AT AN INDEX GIVEN BY COORDINATES. A reusable lemma file in the style of the
  library's Lib/ValueLayout.lean: every lemma is over generic extents and reads one operation at an index written
  `ixN …`, so that it applies to a printed operation at literal shapes by unification.
  • A UNIT AXIS ADDED by a shape cast in the middle or at the end: `shapeCast_ab_a1b_apply`, `shapeCast_ab_ab1_apply`,
    `shapeCast_a_a1_apply` (the two groups of letters spell the operand's shape and the result's): the result at an
    index is the operand at the index with the unit coordinate left out.
  • A UNIT AXIS BROADCAST to an extent: `broadcastTo_a1c_abc_apply`, `broadcastTo_ab1_abc_apply`,
    `broadcastTo_a1_ab_apply`: the result at an index is the operand at the index with `0` on the unit axis.
  • ROWS SPLIT in two by a shape cast: `shapeCast_rc_abc_apply`: an `[r, c]` array cast to `[a, b, c]` reads, at
    `(i, j, k)`, row `i * b + j` at column `k`.
  • ONE-AXIS REDUCTIONS at the ideal instance (extended reals): the maximum over the rows of a matrix
    (`maxAxis0_apply`, a fold of `max` from the accumulator's value), and the sums over the rows or the columns of a
    matrix (`sumAxis0_apply`, `sumAxis1_of2_apply`) and over the last or the middle axis of a rank-3 array
    (`sumAxis2_of3_apply`, `sumAxis1_of3_apply`), each as the `Fin`-indexed sum over the reduced axis's coordinate
    with the source read at `ixN` coordinates. Each takes the format fact and the accumulator's equation as arguments, so it
    applies by `exact`, `.trans` or `erw`; the `…_f32` forms after them (`maxAxis0_f32`, `sumAxis0_f32`,
    `sumAxis1_of2_f32`, `sumAxis2_of3_f32`, `sumAxis1_of3_f32`) have both filled in as a 32-bit float kernel prints
    them, for a plain `rw`.
-/
import Idealize.ShloMosaic.Lib.ValueLayout
import Idealize.ShloMosaic.PureOps.Ideal.Laws

open scoped BigOperators

namespace Cert.AxisForms

open Idealize.ShloMosaic Idealize.ShloMosaic.ValueIdx

variable {α : Type}

/-! ## A unit axis added by a shape cast -/

/-- An `[a, b]` array cast to `[a, 1, b]` reads, at `(i, u, j)`, the operand at `(i, j)`, whatever the unit
coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`, whatever the unit
coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast to an extent -/

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1]` array broadcast to `[a, b]` reads, at `(i, j)`, the operand at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Rows split in two by a shape cast -/

/-- An `[r, c]` array cast to `[a, b, c]` reads, at `(i, j, k)`, the operand's row `i * b + j` at column `k`. -/
theorem shapeCast_rc_abc_apply {r a b c : ℕ} (x : (⟨2, ![r, c]⟩ : Shape).Idx → α)
    (h : (⟨2, ![r, c]⟩ : Shape).ShapeCasts ⟨3, ![a, b, c]⟩) (i : Fin a) (j : Fin b) (k : Fin c)
    (hlt : i.val * b + j.val < r) :
    shapeCast ⟨3, ![a, b, c]⟩ x h (ix3 i j k) = x (ix2 (⟨i.val * b + j.val, hlt⟩ : Fin r) k) :=
  shapeCast_apply x h _ _ (by
    rw [Shape.rowMajor_val_three, Shape.rowMajor_val_two]
    rfl)

/-! ## One-axis reductions at the ideal instance -/

/-- The maximum over the rows of an `[a, b]` matrix reads, at column `j`, the fold of `max` from the accumulator's
value over the column's entries `(i, j)`. -/
theorem maxAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) :=
  (Ideal.multiReduction_maximumf_single src acc h hφ hacc (ix1 j)).trans
    (congrArg (fun f : Fin a → Ideal φ => (Finset.univ : Finset (Fin a)).fold max (Ideal.ofBits φ acc) f)
      (funext fun i => congrArg src (funext fun c => Fin.ext (by
        match c with
        | ⟨0, _⟩ => rfl
        | ⟨1, _⟩ => rfl))))

/-- The sum over the rows of an `[a, b]` matrix reads, at column `j`, the sum of the column's entries `(i, j)`. -/
theorem sumAxis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun i _ => congrArg src (funext fun c => Fin.ext (by
      match c with
      | ⟨0, _⟩ => rfl
      | ⟨1, _⟩ => rfl)))

/-- The sum over the columns of an `[a, b]` matrix reads, at row `i`, the sum of the row's entries `(i, j)`. -/
theorem sumAxis1_of2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun c => Fin.ext (by
      match c with
      | ⟨0, _⟩ => rfl
      | ⟨1, _⟩ => rfl)))

/-- The sum over the last axis of an `[a, b, c]` array reads, at `(i, j)`, the sum of the entries `(i, j, k)`. -/
theorem sumAxis2_of3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with
      | ⟨0, _⟩ => rfl
      | ⟨1, _⟩ => rfl
      | ⟨2, _⟩ => rfl)))

/-- The sum over the middle axis of an `[a, b, c]` array reads, at `(i, k)`, the sum of the entries `(i, j, k)`. -/
theorem sumAxis1_of3_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with
      | ⟨0, _⟩ => rfl
      | ⟨1, _⟩ => rfl
      | ⟨2, _⟩ => rfl)))

/-! ## The same reductions at the accumulators a 32-bit float kernel prints, as rewrite rules

The lemmas above take the format fact and the accumulator's equation as arguments; a printed kernel gives them as
`(.inl rfl)` and `rfl` at a literal word, and a rewrite cannot fill the two arguments in from those. Here they are
filled in: the maximum from the word of `-∞`, the sums from the word of `0`. -/

/-- `maxAxis0_apply` at 32-bit floats from the word of `-∞`. -/
theorem maxAxis0_f32 {a b : ℕ} (src : FVec Ideal ⟨2, ![a, b]⟩ .f32)
    (h : (⟨2, ![a, b]⟩ : Shape).Reduces [0] ⟨1, ![b]⟩) (j : Fin b) :
    multiReduction .maximumf [0] ⟨1, ![b]⟩ src 0xFF800000#32 h (.inl rfl) rfl (ix1 j)
      = (Finset.univ : Finset (Fin a)).fold max (Ideal.ofBits .f32 0xFF800000#32) (fun i => src (ix2 i j)) :=
  maxAxis0_apply src _ h _ _ j

/-- `sumAxis0_apply` at 32-bit floats from the word of `0`. -/
theorem sumAxis0_f32 {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ i : Fin a, src (ix2 i j) :=
  sumAxis0_apply src _ h _ _ j

/-- `sumAxis1_of2_apply` at 32-bit floats from the word of `0`. -/
theorem sumAxis1_of2_f32 {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ j : Fin b, src (ix2 i j) :=
  sumAxis1_of2_apply src _ h _ _ i

/-- `sumAxis2_of3_apply` at 32-bit floats from the word of `0`. -/
theorem sumAxis2_of3_f32 {a b c : ℕ} (src : FVec Ideal ⟨3, ![a, b, c]⟩ .f32)
    (h : (⟨3, ![a, b, c]⟩ : Shape).Reduces [2] ⟨2, ![a, b]⟩) (i : Fin a) (j : Fin b) :
    multiReduction .add [2] ⟨2, ![a, b]⟩ src 0x00000000#32 h (.inl rfl) rfl (ix2 i j) = ∑ k : Fin c, src (ix3 i j k) :=
  sumAxis2_of3_apply src _ h _ _ i j

/-- `sumAxis1_of3_apply` at 32-bit floats from the word of `0`. -/
theorem sumAxis1_of3_f32 {a b c : ℕ} (src : FVec Ideal ⟨3, ![a, b, c]⟩ .f32)
    (h : (⟨3, ![a, b, c]⟩ : Shape).Reduces [1] ⟨2, ![a, c]⟩) (i : Fin a) (k : Fin c) :
    multiReduction .add [1] ⟨2, ![a, c]⟩ src 0x00000000#32 h (.inl rfl) rfl (ix2 i k) = ∑ j : Fin b, src (ix3 i j k) :=
  sumAxis1_of3_apply src _ h _ _ i k

end Cert.AxisForms
-- ==== Proof.VotesKernel.lean ====
/-
  The kernel's contraction read at one entry, on extended reals.

  The kernel multiplies the weight, laid as a [2048, 32] matrix whose row r = 32·o + l is coordinate l of output
  capsule o, by one batch item's inputs, a [1152, 32] matrix, contracting the input length (the second axis of both)
  into a zero accumulator. Its entry at [r, n] is therefore the vote of input capsule n for row r of the weight:
  the sum over the input length i of weight[r, i] · input[n, i].
-/
import proofs.«128484_j6184752906707_1_alg».proof.KernelIdeal
import Idealize.ShloMosaic.Lib.ValueIdx
import Idealize.ShloMosaic.PureOps.Ideal.Laws

noncomputable section

open scoped BigOperators

namespace Cert.KernelIdeal.Votes

open Cert.KernelIdeal Idealize.ShloMosaic Idealize.ShloMosaic.ValueIdx

variable [Facts₀]

/-! ## The operand indices, axis by axis

At result index j and contraction position k the left operand is read at [j 0, k] and the right operand at
[j 1, k]: the kept axis of each operand follows the result, the contracted axis follows k. -/

/-- The weight's row is the result's row. -/
theorem lhs_0 (j : S2048x1152.Idx) (k : dot_S2048x32_S1152x32_S2048x1152_1_1_0_0_n_n.contr.Idx) :
    (dot_S2048x32_S1152x32_S2048x1152_1_1_0_0_n_n.lhsIdx j k (0 : Fin 2)).val = (j 0).val := by
  unfold DotDims.lhsIdx
  rw [dif_neg (show ¬(0 : Fin S2048x32.rank) ∈ dot_S2048x32_S1152x32_S2048x1152_1_1_0_0_n_n.lhsBatch from List.not_mem_nil),
    dif_pos (show (0 : Fin S2048x32.rank) ∈ dot_S2048x32_S1152x32_S2048x1152_1_1_0_0_n_n.lhsNonContracting from
      List.mem_singleton.mpr rfl)]
  rfl

/-- The weight's column is the contraction position. -/
theorem lhs_1 (j : S2048x1152.Idx) (k : dot_S2048x32_S1152x32_S2048x1152_1_1_0_0_n_n.contr.Idx) :
    (dot_S2048x32_S1152x32_S2048x1152_1_1_0_0_n_n.lhsIdx j k (1 : Fin 2)).val = (k ⟨0, Nat.one_pos⟩).val :=
  dot_S2048x32_S1152x32_S2048x1152_1_1_0_0_n_n.lhsIdx_val_of_single rfl j k

/-- The input's row is the result's column. -/
theorem rhs_0 (j : S2048x1152.Idx) (k : dot_S2048x32_S1152x32_S2048x1152_1_1_0_0_n_n.contr.Idx) :
    (dot_S2048x32_S1152x32_S2048x1152_1_1_0_0_n_n.rhsIdx j k (0 : Fin 2)).val = (j 1).val := by
  unfold DotDims.rhsIdx
  rw [dif_neg (show ¬(0 : Fin S1152x32.rank) ∈ dot_S2048x32_S1152x32_S2048x1152_1_1_0_0_n_n.rhsBatch from List.not_mem_nil),
    dif_pos (show (0 : Fin S1152x32.rank) ∈ dot_S2048x32_S1152x32_S2048x1152_1_1_0_0_n_n.rhsNonContracting from
      List.mem_singleton.mpr rfl)]
  rfl

/-- The input's column is the contraction position. -/
theorem rhs_1 (j : S2048x1152.Idx) (k : dot_S2048x32_S1152x32_S2048x1152_1_1_0_0_n_n.contr.Idx) :
    (dot_S2048x32_S1152x32_S2048x1152_1_1_0_0_n_n.rhsIdx j k (1 : Fin 2)).val = (k ⟨0, Nat.one_pos⟩).val :=
  dot_S2048x32_S1152x32_S2048x1152_1_1_0_0_n_n.rhsIdx_val_of_single rfl j k

/-! ## The entry -/

/-- The product into the zero accumulator, read at [r, n]: the sum over the input length of weight[r, i] · input[n, i]. -/
theorem matmul_apply (w : FVec Ideal S2048x32 .bf16) (x : FVec Ideal S1152x32 .bf16) (r : Fin 2048) (n : Fin 1152) :
    matmul dot_S2048x32_S1152x32_S2048x1152_1_1_0_0_n_n none w x (constant S2048x1152 .f32 0x00000000#32) (ix2 r n)
      = ∑ i : Fin 32, w (ix2 r i) * x (ix2 n i) := by
  simp only [matmul]
  rw [Ideal.matmul_constant_zero_apply,
    ← Equiv.sum_comp (contrEquiv1 dot_S2048x32_S1152x32_S2048x1152_1_1_0_0_n_n 32 rfl rfl).symm]
  refine Finset.sum_congr rfl fun k _ => ?_
  have hk := contrEquiv1_symm_val dot_S2048x32_S1152x32_S2048x1152_1_1_0_0_n_n 32 rfl rfl k
  have el : dot_S2048x32_S1152x32_S2048x1152_1_1_0_0_n_n.lhsIdx (ix2 r n)
      ((contrEquiv1 dot_S2048x32_S1152x32_S2048x1152_1_1_0_0_n_n 32 rfl rfl).symm k) = ix2 r k :=
    funext fun a => Fin.ext (by
      match a with
      | ⟨0, _⟩ => exact lhs_0 _ _
      | ⟨1, _⟩ => exact (lhs_1 _ _).trans hk)
  have er : dot_S2048x32_S1152x32_S2048x1152_1_1_0_0_n_n.rhsIdx (ix2 r n)
      ((contrEquiv1 dot_S2048x32_S1152x32_S2048x1152_1_1_0_0_n_n 32 rfl rfl).symm k) = ix2 n k :=
    funext fun a => Fin.ext (by
      match a with
      | ⟨0, _⟩ => exact rhs_0 _ _
      | ⟨1, _⟩ => exact (rhs_1 _ _).trans hk)
  rw [el, er]

end Cert.KernelIdeal.Votes
-- ==== Proof.KernelRead.lean ====
/-
  The kernel body's array-level stages read at one entry, on extended reals.

  One grid point holds one batch item, the votes laid [o, l, n], the logits [o, n], the capsules [o, l]. Each stage,
  read at (o, n) or at (o, l), is the routing specification's function of the same name, given that its operands read
  as the specification's operands: the column maximum is 'colMax', the shifted exponential 'expo', the weighted sum
  of the votes 'caps', the squared length 'normSq', the squash 'squash', and the updated logit the old one plus the
  vote's inner product with the squashed capsule. The votes themselves read as 'priors' of the weight's row
  32 * o + l against the batch item's inputs. A whole round is therefore 'agree', and the stored block, the third
  round's squashed capsules after two rounds from zero logits, is 'routed' of the block's votes.
-/
import proofs.«128484_j6184752906707_1_alg».proof.Proof.Routing
import proofs.«128484_j6184752906707_1_alg».proof.Proof.KernelStages
import proofs.«128484_j6184752906707_1_alg».proof.Proof.LibAxisForms
import proofs.«128484_j6184752906707_1_alg».proof.Proof.VotesKernel

set_option maxRecDepth 8192

noncomputable section

open scoped BigOperators

namespace Cert.KernelIdeal.Stages

open Cert.KernelIdeal Cert.KernelIdeal.Gen Idealize.ShloMosaic Idealize.ShloMosaic.TcCoe
open Cert.Routing Cert.AxisForms Idealize.ShloMosaic.ValueIdx

/-! ## The votes -/

/-- The votes as the body's operations on the two loaded blocks. -/
theorem votes_eq (x : Vec Ideal S1x1152x32 .f32) (w : Vec Ideal S2048x32 .f32) :
    k0_pay2 x w = shapeCast S64x32x1152
      (matmul dot_S2048x32_S1152x32_S2048x1152_1_1_0_0_n_n none
        (truncf .bf16 (shapeCast S2048x32 w shapeCasts_S2048x32_S2048x32) bitsLt_bf16_f32)
        (truncf .bf16 (shapeCast S1152x32 x shapeCasts_S1x1152x32_S1152x32) bitsLt_bf16_f32)
        (constant S2048x1152 .f32 0x00000000#32)) shapeCasts_S2048x1152_S64x32x1152 := rfl

/-- The vote at (o, l, n): row 32 * o + l of the weight against input capsule n, summed over the input length. -/
theorem votes_apply (x : Vec Ideal S1x1152x32 .f32) (w : Vec Ideal S2048x32 .f32) (o : Fin 64) (l : Fin 32) (n : Fin 1152) :
    k0_pay2 x w (ix3 o l n) = priors (fun o l i => w (ix2 (⟨o.val * 32 + l.val, by omega⟩ : Fin 2048) i)) (fun n i => x (ix3 (0 : Fin 1) n i)) o l n := by
  rw [votes_eq, shapeCast_rc_abc_apply _ _ o l n (by omega), Votes.matmul_apply]
  unfold priors
  refine Finset.sum_congr rfl fun i _ => ?_
  rw [truncf_apply, truncf_apply, shapeCast_self, shapeCast_1ab_ab_apply]

/-! ## The stages of a round -/

/-- The starting logits are zero. -/
theorem logits0_apply (o : Fin 64) (n : Fin 1152) : logits0 (F := Ideal) (ix2 o n) = Cert.Routing.logits0 o n := rfl

/-- The row of column maxima reads, at n, the largest logit of column n. -/
theorem colTop_apply (L : FVec Ideal S64x1152 .f32) (Lk : Fin 64 → Fin 1152 → EReal) (hL : ∀ o n, L (ix2 o n) = Lk o n)
    (u : Fin 1) (n : Fin 1152) : colTop L (ix2 u n) = colMax Lk n := by
  unfold colTop
  rw [shapeCast_a_1a_apply, maximumf_apply, maxAxis0_f32]
  have hf : (fun i : Fin 64 => L (ix2 i n)) = fun o => Lk o n := funext fun i => hL i n
  rw [hf]
  rfl

/-- The shifted exponential at (o, n). -/
theorem shifted_apply (L : FVec Ideal S64x1152 .f32) (M : FVec Ideal S1x1152 .f32) (Lk : Fin 64 → Fin 1152 → EReal)
    (hL : ∀ o n, L (ix2 o n) = Lk o n) (hM : ∀ u n, M (ix2 u n) = colMax Lk n) (o : Fin 64) (n : Fin 1152) :
    shifted L M (ix2 o n) = expo Lk o n := by
  unfold shifted
  show Ideal.exp (L (ix2 o n) - broadcastTo S64x1152 M broadcasts_S1x1152_S64x1152 (ix2 o n)) = expo Lk o n
  rw [broadcastTo_1b_ab_apply, hL, hM]
  rfl

/-- The capsule at (o, l): the votes summed against the couplings over the input capsules. -/
theorem capsules_apply (P : FVec Ideal S64x32x1152 .f32) (E : FVec Ideal S64x1152 .f32)
    (Pk : Fin 64 → Fin 32 → Fin 1152 → EReal) (Lk : Fin 64 → Fin 1152 → EReal)
    (hP : ∀ o l n, P (ix3 o l n) = Pk o l n) (hE : ∀ o n, E (ix2 o n) = expo Lk o n) (o : Fin 64) (l : Fin 32) :
    capsules P E (ix2 o l) = caps Pk Lk o l := by
  unfold capsules
  rw [sumAxis2_of3_f32]
  unfold caps
  refine Finset.sum_congr rfl fun n _ => ?_
  rw [mulf_apply, hP, broadcastTo_a1c_abc_apply, shapeCast_ab_a1b_apply, divf_apply, hE, broadcastTo_1b_ab_apply,
    shapeCast_a_1a_apply, sumAxis0_f32]
  have hs : (∑ i : Fin 64, E (ix2 i n)) = ∑ o' : Fin 64, expo Lk o' n := Finset.sum_congr rfl fun i _ => hE i n
  rw [hs]
  rfl

/-- The squared length of capsule o, whatever the unit coordinate. -/
theorem sqLen_apply (O : FVec Ideal S64x32 .f32) (v : Fin 64 → Fin 32 → EReal) (hO : ∀ o l, O (ix2 o l) = v o l)
    (o : Fin 64) (u : Fin 1) : sqLen O (ix2 o u) = normSq v o := by
  unfold sqLen
  rw [shapeCast_a_a1_apply, sumAxis1_of2_f32]
  unfold normSq
  refine Finset.sum_congr rfl fun j _ => ?_
  rw [mulf_apply, hO]

/-- The squashed capsule at (o, l). -/
theorem squashed_apply (O : FVec Ideal S64x32 .f32) (N : FVec Ideal S64x1 .f32) (v : Fin 64 → Fin 32 → EReal)
    (hO : ∀ o l, O (ix2 o l) = v o l) (hN : ∀ o u, N (ix2 o u) = normSq v o) (o : Fin 64) (l : Fin 32) :
    squashed O N (ix2 o l) = squash v o l := by
  unfold squashed
  rw [divf_apply, mulf_apply, hO, broadcastTo_a1_ab_apply, broadcastTo_a1_ab_apply, addf_apply]
  show Ideal.div (v o l * Ideal.sqrt (N (ix2 o (0 : Fin 1)))) (Ideal.ofBits .f32 0x3F800000#32 + N (ix2 o (0 : Fin 1)))
    = squash v o l
  rw [hN]
  rfl

/-- The updated logit at (o, n): the old one plus the vote's inner product with the squashed capsule. -/
theorem updated_apply (P : FVec Ideal S64x32x1152 .f32) (L : FVec Ideal S64x1152 .f32) (S : FVec Ideal S64x32 .f32)
    (Pk : Fin 64 → Fin 32 → Fin 1152 → EReal) (Lk : Fin 64 → Fin 1152 → EReal) (s : Fin 64 → Fin 32 → EReal)
    (hP : ∀ o l n, P (ix3 o l n) = Pk o l n) (hL : ∀ o n, L (ix2 o n) = Lk o n) (hS : ∀ o l, S (ix2 o l) = s o l)
    (o : Fin 64) (n : Fin 1152) : updated P L S (ix2 o n) = Lk o n + ∑ l : Fin 32, Pk o l n * s o l := by
  unfold updated
  rw [addf_apply, hL, sumAxis1_of3_f32]
  refine congrArg (fun t => Lk o n + t) (Finset.sum_congr rfl fun l _ => ?_)
  rw [mulf_apply, hP, broadcastTo_ab1_abc_apply, shapeCast_ab_ab1_apply, hS]

/-! ## A whole round, and the stored block -/

/-- The capsules under logits that read as Lk. -/
theorem capsOf_apply (P : FVec Ideal S64x32x1152 .f32) (L : FVec Ideal S64x1152 .f32)
    (Pk : Fin 64 → Fin 32 → Fin 1152 → EReal) (Lk : Fin 64 → Fin 1152 → EReal)
    (hP : ∀ o l n, P (ix3 o l n) = Pk o l n) (hL : ∀ o n, L (ix2 o n) = Lk o n) (o : Fin 64) (l : Fin 32) :
    capsOf P L (ix2 o l) = caps Pk Lk o l := by
  unfold capsOf
  exact capsules_apply P (shifted L (colTop L)) Pk Lk hP
    (fun o n => shifted_apply L (colTop L) Lk hL (fun u n => colTop_apply L Lk hL u n) o n) o l

/-- One round on logits that read as Lk leaves logits that read as the agreement update of Lk. -/
theorem round_apply (P : FVec Ideal S64x32x1152 .f32) (L : FVec Ideal S64x1152 .f32)
    (Pk : Fin 64 → Fin 32 → Fin 1152 → EReal) (Lk : Fin 64 → Fin 1152 → EReal)
    (hP : ∀ o l n, P (ix3 o l n) = Pk o l n) (hL : ∀ o n, L (ix2 o n) = Lk o n) (o : Fin 64) (n : Fin 1152) :
    round P L (ix2 o n) = agree Pk Lk o n := by
  unfold round
  exact updated_apply P L (squashed (capsOf P L) (sqLen (capsOf P L))) Pk Lk (squash (caps Pk Lk)) hP hL
    (fun o l => squashed_apply (capsOf P L) (sqLen (capsOf P L)) (caps Pk Lk) (capsOf_apply P L Pk Lk hP hL)
      (fun o u => sqLen_apply (capsOf P L) (caps Pk Lk) (capsOf_apply P L Pk Lk hP hL) o u) o l) o n

/-- The stored block at (u, o, l) is the routing of the block's votes. -/
theorem stored_apply (x : Vec Ideal S1x1152x32 .f32) (w : Vec Ideal S2048x32 .f32) (u : Fin 1) (o : Fin 64) (l : Fin 32) :
    stored x w (ix3 u o l) = routed (priors (fun o l i => w (ix2 (⟨o.val * 32 + l.val, by omega⟩ : Fin 2048) i)) (fun n i => x (ix3 (0 : Fin 1) n i))) o l := by
  unfold stored
  rw [shapeCast_ab_1ab_apply]
  have hP := votes_apply x w
  have h1 := round_apply (k0_pay2 x w) logits0 _ _ hP logits0_apply
  have h2 := round_apply (k0_pay2 x w) _ _ _ hP h1
  have hc := capsOf_apply (k0_pay2 x w) _ _ _ hP h2
  exact squashed_apply _ _ _ hc (fun o u => sqLen_apply _ _ hc o u) o l

end Cert.KernelIdeal.Stages

end
-- ==== Proof.KernelValue.lean ====
/-
  From blocks to the array: the kernel's result array is `routedAll` of its arguments.

  Grid point `t` (one per batch item) stages block `t` of `x` — the [1, 1152, 32] slab of batch item `t` — and the whole
  of the weight re-laid [2048, 32] (row 32·o + l is `w[o, l, :]`, by the host's reshape before the region), and writes
  back block `t` of the result, the [1, 64, 32] slab of batch item `t`. What it writes is the body's stored block, which
  read at (o, l) is `routed` of the votes of that batch item (the stages' reads); the 32 slabs tile the result array, so
  the array after the run is `routedAll x w` everywhere.
-/
import proofs.«128484_j6184752906707_1_alg».proof.Proof.KernelBlocks
import proofs.«128484_j6184752906707_1_alg».proof.Proof.KernelStages
import proofs.«128484_j6184752906707_1_alg».proof.Proof.KernelRead
import proofs.«128484_j6184752906707_1_alg».proof.Proof.Routing
import Idealize.ShloMosaic.Lib.ValueLayout
import Idealize.ShloMosaic.Lib.StableHlo.Run

set_option maxRecDepth 16384

noncomputable section

namespace Cert.KernelIdeal.RoutValue

open Cert.KernelIdeal Cert.KernelIdeal.Gen Idealize.ShloMosaic Idealize.ShloMosaic.TcCoe Idealize.SL.Sem
open Idealize.ShloMosaic.Pipeline (Dat)
open Idealize.ShloMosaic.ValueIdx Cert.Routing

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The weight as the region finds it: the host's reshape of the argument, [64, 32, 32] laid [2048, 32]. -/
theorem V_main_v0 (c : Dev nD) :
    (V m c main_v0 : S2048x32.Idx → EReal) = shapeCast S2048x32 (m ((c : Thread nD τ).loc main_arg1)) shapeCasts_S64x32x32_S2048x32 := by
  dsimp only [Gen.V, Gen.hostOps0]; after_results; rfl

/-- Row 32·o + l of the re-laid weight is `w[o, l, :]`. -/
theorem weight_row (A : S64x32x32.Idx → EReal) (o : Fin 64) (l : Fin 32) (i : Fin 32) (hlt : o.val * 32 + l.val < 2048) :
    shapeCast S2048x32 A shapeCasts_S64x32x32_S2048x32 (ix2 (⟨o.val * 32 + l.val, hlt⟩ : Fin 2048) i) = A (ix3 o l i) :=
  shapeCast_apply A _ _ _ (by
    rw [Shape.rowMajor_val_three, Shape.rowMajor_val_two]
    show (o.val * 32 + l.val) * 32 + i.val = (o.val * 32 + l.val) * 32 + i.val
    rfl)

/-- The printed index maps, decided over the 32 grid points: the input slab and the output slab are those of batch item
    `t`, the weight's one block is the whole array. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The stored block of ANY slab `x` and re-laid weight `w` that agree with arrays `X`, `A` at batch item `b`, read at a
    block index, is the result array `routedAll X A` at the array index over it. -/
theorem stored_value (x : Vec Ideal S1x1152x32 .f32) (w : Vec Ideal S2048x32 .f32) (X : S32x1152x32.Idx → EReal) (A : S64x32x32.Idx → EReal)
    (b : Fin 32) (hx : ∀ (n : Fin 1152) (i : Fin 32), x (ix3 (0 : Fin 1) n i) = X (ix3 b n i))
    (hw : ∀ (o : Fin 64) (l : Fin 32) (i : Fin 32) (hlt : o.val * 32 + l.val < 2048), w (ix2 (⟨o.val * 32 + l.val, hlt⟩ : Fin 2048) i) = A (ix3 o l i))
    (y : S1x64x32.Idx) (j : S32x64x32.Idx) (hj0 : (j 0).val = b.val) (hj1 : (j 1).val = (y 1).val) (hj2 : (j 2).val = (y 2).val) :
    Stages.stored x w y = routedAll X A j := by
  obtain ⟨u, o, l, rfl⟩ : ∃ (u : Fin 1) (o : Fin 64) (l : Fin 32), y = ix3 u o l := ⟨y 0, y 1, y 2, eq_ix3 y⟩
  have ej : j = ix3 b o l := by
    funext a; apply Fin.ext
    match a with
    | ⟨0, _⟩ => exact hj0
    | ⟨1, _⟩ => exact hj1
    | ⟨2, _⟩ => exact hj2
  rw [ej, routedAll_apply, Stages.stored_apply]
  congr 2
  · funext o' l' i; exact hw o' l' i _
  · funext n i; exact hx n i

/-- What grid point `t` writes back is block `t` of `routedAll` of the argument arrays. -/
theorem flushed_eq (c : Dev nD) (t : Fin cfg0.N) :
    (dats m 0 c).flushed 2 t = ((cfg0.win 2).blk t).view.read (Elt Ideal)
      (routedAll (m ((c : Thread nD τ).loc main_arg0)) (m ((c : Thread nD τ).loc main_arg1))) := by
  rw [Cert.KernelIdeal.ValueP.flushed2]
  unfold out0_2
  rw [View.canon_unit_zero hz3]
  simp only [View.ld_unit_zero (S := S1x1152x32) hz3, View.ld_unit_zero (S := S2048x32) hz2]
  obtain ⟨e0, e1, e2, e3, e4, e5, e6, e7⟩ := idx_facts t
  have ht : t.val < 32 := t.isLt
  funext y
  refine (congrFun (Stages.block_eq (F := Ideal) (iblk m c 0 t) (iblk m c 1 t)) y).trans ?_
  refine stored_value (iblk m c 0 t) (iblk m c 1 t) (m ((c : Thread nD τ).loc main_arg0)) (m ((c : Thread nD τ).loc main_arg1))
    (⟨t.val, ht⟩ : Fin 32) ?_ ?_ y (((cfg0.win 2).blk t).view.emb y) ?_ ?_ ?_
  · intro n i
    show V m c main_arg0 (((cfg0.win 0).blk t).view.emb (ix3 (0 : Fin 1) n i)) = _
    rw [V_main_arg0]
    refine congrArg (m ((c : Thread nD τ).loc main_arg0)) ?_
    funext a; apply Fin.ext
    match a with
    | ⟨0, _⟩ => show win0_0.index t (0 : Fin 3) * 1 + 1 * 0 = t.val; omega
    | ⟨1, _⟩ => show win0_0.index t (1 : Fin 3) * 1152 + 1 * n.val = n.val; omega
    | ⟨2, _⟩ => show win0_0.index t (2 : Fin 3) * 32 + 1 * i.val = i.val; omega
  · intro o l i hlt
    show V m c main_v0 (((cfg0.win 1).blk t).view.emb (ix2 (⟨o.val * 32 + l.val, hlt⟩ : Fin 2048) i)) = _
    rw [V_main_v0]
    refine Eq.trans (congrArg _ ?_) (weight_row _ o l i hlt)
    funext a; apply Fin.ext
    match a with
    | ⟨0, _⟩ => show win0_1.index t (0 : Fin 2) * 2048 + 1 * (o.val * 32 + l.val) = o.val * 32 + l.val; omega
    | ⟨1, _⟩ => show win0_1.index t (1 : Fin 2) * 32 + 1 * i.val = i.val; omega
  · show win0_2.index t (0 : Fin 3) * 1 + 1 * (y 0).val = t.val
    have hy : (y 0).val < 1 := (y 0).isLt
    omega
  · show win0_2.index t (1 : Fin 3) * 64 + 1 * (y 1).val = (y 1).val
    omega
  · show win0_2.index t (2 : Fin 3) * 32 + 1 * (y 2).val = (y 2).val
    omega

/-- An index of the result array is in point `t`'s block iff each coordinate is in the block's range on its axis. -/
theorem mem_blk (t : Fin cfg0.N) (i : S32x64x32.Idx) :
    i ∈ ((cfg0.win 2).blk t).view.set ↔ ∀ a : Fin 3, win0_2.index t a * S1x64x32.size a ≤ (i a).val ∧ (i a).val < win0_2.index t a * S1x64x32.size a + S1x64x32.size a := by
  show i ∈ ((View.whole main_v1).slice (win0_2.rect t)).set ↔ _
  rw [View.set_slice_whole, Rect.mem_set_unit]
  exact Iff.rfl

/-- Every index of the result array lies in the slab of its batch item. -/
theorem cover (i : S32x64x32.Idx) : ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 32 := (i 2).isLt
  refine ⟨(⟨(i 0).val, hi0⟩ : Fin grid0.N), flush0_2 _, ?_⟩
  obtain ⟨-, -, -, -, -, e5, e6, e7⟩ := idx_facts (⟨(i 0).val, hi0⟩ : Fin grid0.N)
  rw [mem_blk]
  intro a
  match a with
  | ⟨0, _⟩ => show win0_2.index _ (0 : Fin 3) * 1 ≤ (i 0).val ∧ (i 0).val < win0_2.index _ (0 : Fin 3) * 1 + 1; rw [e5]; show (i 0).val * 1 ≤ (i 0).val ∧ (i 0).val < (i 0).val * 1 + 1; omega
  | ⟨1, _⟩ => show win0_2.index _ (1 : Fin 3) * 64 ≤ (i 1).val ∧ (i 1).val < win0_2.index _ (1 : Fin 3) * 64 + 64; rw [e6]; omega
  | ⟨2, _⟩ => show win0_2.index _ (2 : Fin 3) * 32 ≤ (i 2).val ∧ (i 2).val < win0_2.index _ (2 : Fin 3) * 32 + 32; rw [e7]; omega

/-- The result array after the run. -/
theorem final (c : Dev nD) :
    (dats m 0 c).arrAt 2 cfg0.N = routedAll (m ((c : Thread nD τ).loc main_arg0)) (m ((c : Thread nD τ).loc main_arg1)) :=
  (dats m 0 c).arrAt_eq_of_cover 2 _ (fun t _ => flushed_eq m c t) cover

/-- The kernel's run: the result array ends at `routedAll` of the arguments, the arguments unchanged. -/
theorem run : θ_run (defs (F := Ideal)) (onTc (τ := τ) (main (F := Ideal))) ⟨m, fun _ => 0, ρ⟩ fun r => ∀ c : Dev nD,
      r.2.mem ((c : Thread nD τ).loc main_v1) = routedAll (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.ValueP.run_blocks m ρ)

end Cert.KernelIdeal.RoutValue

end
-- ==== Proof.RefStages.lean ====
/-
  The reference's three routing rounds as four array-level stages, each ONE function of the arrays it reads.

  All arrays are laid [b, o, n, l] (batch item, output capsule, input capsule, output coordinate); the logits are
  carried repeated along `l`, the capsules and their squared lengths with unit axes kept. A round is
  `shifted` (the logits minus their maximum over the output capsules, exponentiated), `capsules` (the softmax
  quotient times the votes, summed over the input capsules), `sqLen` (the squared length of each capsule),
  `updated` (the logits plus each vote's inner product with the squashed capsule); `result` squashes the third
  round's capsules. The reference's run, read back, is these stages composed three times: the equations at the end.
-/
import proofs.«128484_j6184752906707_1_alg».proof.Proof.Gen.ReferenceIdeal.Run

set_option maxRecDepth 8192

noncomputable section

namespace Cert.ReferenceIdeal.Stages

open Cert.ReferenceIdeal Cert.ReferenceIdeal.Gen Cert.ReferenceIdeal.Value Idealize.ShloMosaic Idealize.ShloMosaic.TcCoe Idealize.ShloMosaic.StableHlo

variable {F : FTy → Type} [FloatOps F]

/-- The votes: `x · wᵀ` over the input length at [b, n, o, l], re-laid [b, o, n, l]. -/
def votes (x : FVec F S32x1152x32 .f32) (w : FVec F S64x32x32 .f32) : FVec F S32x64x1152x32 .f32 :=
  transpose S32x64x1152x32 [0, 2, 1, 3] (Host.dotGeneral dot_S32x1152x32_S64x32x32_S32x1152x64x32_2_2_01_01_n_n none x w) transposes_S32x1152x64x32_S32x64x1152x32_0_2_1_3

/-- The logits the routing starts from: zero everywhere. -/
def logits0 : FVec F S32x64x1152x32 .f32 :=
  broadcastInDim S32x64x1152x32 ![] bcast_S_S32x64x1152x32 (constant S_ .f32 0x00000000#32)

/-- `exp (L − max over the output capsules of L)`. -/
def shifted (L : FVec F S32x64x1152x32 .f32) : FVec F S32x64x1152x32 .f32 :=
  Host.exp (subf L (broadcastInDim S32x64x1152x32 ![0, 1, 2, 3] bcast_S32x1x1152x32_S32x64x1152x32_0_1_2_3 (broadcastInDim S32x1x1152x32 ![0, 2, 3] bcast_S32x1152x32_S32x1x1152x32_0_2_3 (maximumf (broadcastInDim S32x1152x32 ![] bcast_S_S32x1152x32 (constant S_ .f32 0xFF800000#32)) (Host.reduce FloatOps.maximumf L (constant S_ .f32 0xFF800000#32) reducesTo_S32x64x1152x32_S32x1152x32_d1 h_S_)))))

/-- The capsules of a round: the shifted exponentials `E` over their sum across the output capsules, times the votes
    `P`, summed over the input capsules; laid [b, o, 1, l]. -/
def capsules (P E : FVec F S32x64x1152x32 .f32) : FVec F S32x64x1x32 .f32 :=
  broadcastInDim S32x64x1x32 ![0, 1, 3] bcast_S32x64x32_S32x64x1x32_0_1_3 (Host.reduceAdd (mulf (Host.divf E (broadcastInDim S32x64x1152x32 ![0, 1, 2, 3] bcast_S32x1x1152x32_S32x64x1152x32_0_1_2_3 (broadcastInDim S32x1x1152x32 ![0, 2, 3] bcast_S32x1152x32_S32x1x1152x32_0_2_3 (Host.reduceAdd E (constant S_ .f32 0x00000000#32) reducesTo_S32x64x1152x32_S32x1152x32_d1 h_S_)))) P) (constant S_ .f32 0x00000000#32) reducesTo_S32x64x1152x32_S32x64x32_d2 h_S_)

/-- The squared length of each capsule; laid [b, o, 1, 1]. -/
def sqLen (O : FVec F S32x64x1x32 .f32) : FVec F S32x64x1x1 .f32 :=
  broadcastInDim S32x64x1x1 ![0, 1, 2] bcast_S32x64x1_S32x64x1x1_0_1_2 (Host.reduceAdd (mulf O O) (constant S_ .f32 0x00000000#32) reducesTo_S32x64x1x32_S32x64x1_d3 h_S_)

/-- The squashed capsules `O · √N / (1 + N)` of capsules `O` with squared lengths `N`; laid [b, o, 1, l]. -/
def squashed (O : FVec F S32x64x1x32 .f32) (N : FVec F S32x64x1x1 .f32) : FVec F S32x64x1x32 .f32 :=
  Host.divf (mulf O (broadcastInDim S32x64x1x32 ![0, 1, 2, 3] bcast_S32x64x1x1_S32x64x1x32_0_1_2_3 (Host.sqrt N))) (broadcastInDim S32x64x1x32 ![0, 1, 2, 3] bcast_S32x64x1x1_S32x64x1x32_0_1_2_3 (addf (broadcastInDim S32x64x1x1 ![] bcast_S_S32x64x1x1 (constant S_ .f32 0x3F800000#32)) N))

/-- The logits after a round: each gains its vote's inner product, over the output coordinates, with the squashed capsule. -/
def updated (P L : FVec F S32x64x1152x32 .f32) (O : FVec F S32x64x1x32 .f32) (N : FVec F S32x64x1x1 .f32) : FVec F S32x64x1152x32 .f32 :=
  addf L (broadcastInDim S32x64x1152x32 ![0, 1, 2, 3] bcast_S32x64x1152x1_S32x64x1152x32_0_1_2_3 (broadcastInDim S32x64x1152x1 ![0, 1, 2] bcast_S32x64x1152_S32x64x1152x1_0_1_2 (Host.reduceAdd (mulf P (broadcastInDim S32x64x1152x32 ![0, 1, 2, 3] bcast_S32x64x1x32_S32x64x1152x32_0_1_2_3 (squashed O N))) (constant S_ .f32 0x00000000#32) reducesTo_S32x64x1152x32_S32x64x1152_d3 h_S_)))

/-- The result: the squashed capsules with the unit axis dropped, [b, o, l]. -/
def result (O : FVec F S32x64x1x32 .f32) (N : FVec F S32x64x1x1 .f32) : FVec F S32x64x32 .f32 :=
  shapeCast S32x64x32 (squashed O N) shapeCasts_S32x64x1x32_S32x64x32

/-! ## The run's named intermediates are these stages -/

variable (V0 : Valuation τ sig (Elt F))

theorem v1_eq : res_main_v1 V0 = votes (V0 (Proc.devRef .tc main_arg0)) (V0 (Proc.devRef .tc main_arg1)) := rfl
theorem v2_eq : res_main_v2 V0 = logits0 := rfl
theorem v9_eq : res_main_v9 V0 = shifted (res_main_v2 V0) := rfl
theorem v16_eq : res_main_v16 V0 = capsules (res_main_v1 V0) (res_main_v9 V0) := rfl
theorem v19_eq : res_main_v19 V0 = sqLen (res_main_v16 V0) := rfl
theorem v32_eq : res_main_v32 V0 = updated (res_main_v1 V0) (res_main_v2 V0) (res_main_v16 V0) (res_main_v19 V0) := rfl
theorem v39_eq : res_main_v39 V0 = shifted (res_main_v32 V0) := rfl
theorem v46_eq : res_main_v46 V0 = capsules (res_main_v1 V0) (res_main_v39 V0) := rfl
theorem v49_eq : res_main_v49 V0 = sqLen (res_main_v46 V0) := rfl
theorem v62_eq : res_main_v62 V0 = updated (res_main_v1 V0) (res_main_v32 V0) (res_main_v46 V0) (res_main_v49 V0) := rfl
theorem v69_eq : res_main_v69 V0 = shifted (res_main_v62 V0) := rfl
theorem v76_eq : res_main_v76 V0 = capsules (res_main_v1 V0) (res_main_v69 V0) := rfl
theorem v79_eq : res_main_v79 V0 = sqLen (res_main_v76 V0) := rfl

end Cert.ReferenceIdeal.Stages

end
-- ==== Proof.LibHostAxisForms.lean ====
/-
  A HOST PROGRAM'S RANK-4 RE-LAYOUTS AND ONE-AXIS REDUCTIONS READ AT AN INDEX GIVEN BY COORDINATES. A host program that
  normalizes over one axis of a rank-4 array (a softmax over axis 1, a norm over axis 2 or 3) prints, around each
  reduction, the keepdims re-layouts of its result: a `stablehlo.broadcast_in_dim` that puts the reduced axis back as a unit
  axis, and a second one that stretches that unit axis over the full extent. Lib/Pipeline/Value.lean § "Layout
  operations read at an index" reads such an operation at an index `j` as the operand at an index `k` the caller names and
  asks for the coordinates' arithmetic; here that obligation is discharged for indices written `ixN …`
  (Lib/ValueIdx.lean), in the manner of Lib/ValueLayout.lean, so that a lemma applies to a printed operation by
  unification. The extents `a b c d` are generic throughout.
  • A SCALAR SPLAT (`splat_apply`): a rank-0 operand broadcast to any shape reads its one element.
  • A UNIT AXIS PUT BACK (operand rank 3, result rank 4; the letters spell the operand's shape and the result's):
    `bcast_acd_a1cd_apply` (axis 1), `bcast_abd_ab1d_apply` (axis 2), `bcast_abc_abc1_apply` (axis 3), and
    `bcast_ab1_ab11_apply` (a last unit axis added to an array that already ends in one).
  • A UNIT AXIS STRETCHED (rank 4 to rank 4, dims the identity): `bcast_a1cd_abcd_apply` (axis 1),
    `bcast_ab1d_abcd_apply` (axis 2), `bcast_abc1_abcd_apply` (axis 3), `bcast_ab11_ab1d_apply` (axis 3 of an array
    whose axis 2 stays a unit axis).
  • The TRANSPOSE that swaps the two middle axes (`transpose_0213_apply`) and the SQUEEZE of a unit axis 2
    (`shapeCast_ab1d_abd_apply`).
  • ONE-AXIS HOST REDUCTIONS at the ideal values: a `stablehlo.reduce` with a `maximum` body over axis 1 is the fold of
    `max` from the initial value over that axis's coordinates (`hostMaxAxis1_apply`); one with an `add` body over axis
    1, 2 or 3 is the initial value plus the `Fin`-indexed sum over that axis's coordinates (`hostSumAxis1_apply`,
    `hostSumAxis2_apply`, `hostSumAxis3_apply`). These are PureOps/Reduce.lean's `Host.reduce_eq_fold_single` and
    PureOps/Ideal/Laws.lean's `Ideal.hostReduceAdd_single` with the inserted index `Shape.Reduces.lift` written `ix4 …`
    and the bound variable ranging over `Fin` of the extent itself.
-/
import Idealize.ShloMosaic.Lib.ValueLayout
import Idealize.ShloMosaic.PureOps.Ideal.Laws
import Idealize.ShloMosaic.PureOps.Reduce

open scoped BigOperators

namespace Cert.HostAxisForms

open Idealize.ShloMosaic Idealize.ShloMosaic.ValueIdx

variable {α : Type}

/-! ## The coordinate a broadcast reads on one operand axis -/

/-- A coordinate below `n` is `0` when `n = 1` and itself otherwise: what `broadcastInDim_apply` asks on an operand
axis that keeps its extent in the result. -/
theorem coord_eq_ite {n : ℕ} (i : Fin n) : i.val = if n = 1 then 0 else i.val := by
  split
  · have := i.isLt; omega
  · rfl

/-! ## A scalar splat -/

/-- A rank-0 operand broadcast to any shape reads, at every index, its one element. -/
theorem splat_apply {t : Shape} (h : (⟨0, ![]⟩ : Shape).BroadcastsInDim t ![]) (x : (⟨0, ![]⟩ : Shape).Idx → α) (j : t.Idx) :
    broadcastInDim t ![] h x j = x ix0 :=
  broadcastInDim_apply _ h x j ix0 fun ax => ax.elim0

/-! ## A unit axis put back -/

/-- An `[a, c, d]` array broadcast to `[a, 1, c, d]` along `[0, 2, 3]` reads, at `(i, u, k, l)`, the operand at
`(i, k, l)`, whatever the unit coordinate `u`. -/
theorem bcast_acd_a1cd_apply {a c d : ℕ} (h : (⟨3, ![a, c, d]⟩ : Shape).BroadcastsInDim ⟨4, ![a, 1, c, d]⟩ ![0, 2, 3])
    (x : (⟨3, ![a, c, d]⟩ : Shape).Idx → α) (i : Fin a) (u : Fin 1) (k : Fin c) (l : Fin d) :
    broadcastInDim ⟨4, ![a, 1, c, d]⟩ ![0, 2, 3] h x (ix4 i u k l) = x (ix3 i k l) := by
  refine broadcastInDim_apply _ h x (ix4 i u k l) (ix3 i k l) fun ax => ?_
  match ax with
  | ⟨0, _⟩ => exact coord_eq_ite i
  | ⟨1, _⟩ => exact coord_eq_ite k
  | ⟨2, _⟩ => exact coord_eq_ite l

/-- An `[a, b, d]` array broadcast to `[a, b, 1, d]` along `[0, 1, 3]` reads, at `(i, j, u, l)`, the operand at
`(i, j, l)`, whatever the unit coordinate `u`. -/
theorem bcast_abd_ab1d_apply {a b d : ℕ} (h : (⟨3, ![a, b, d]⟩ : Shape).BroadcastsInDim ⟨4, ![a, b, 1, d]⟩ ![0, 1, 3])
    (x : (⟨3, ![a, b, d]⟩ : Shape).Idx → α) (i : Fin a) (j : Fin b) (u : Fin 1) (l : Fin d) :
    broadcastInDim ⟨4, ![a, b, 1, d]⟩ ![0, 1, 3] h x (ix4 i j u l) = x (ix3 i j l) := by
  refine broadcastInDim_apply _ h x (ix4 i j u l) (ix3 i j l) fun ax => ?_
  match ax with
  | ⟨0, _⟩ => exact coord_eq_ite i
  | ⟨1, _⟩ => exact coord_eq_ite j
  | ⟨2, _⟩ => exact coord_eq_ite l

/-- An `[a, b, c]` array broadcast to `[a, b, c, 1]` along `[0, 1, 2]` reads, at `(i, j, k, u)`, the operand at
`(i, j, k)`, whatever the unit coordinate `u`. -/
theorem bcast_abc_abc1_apply {a b c : ℕ} (h : (⟨3, ![a, b, c]⟩ : Shape).BroadcastsInDim ⟨4, ![a, b, c, 1]⟩ ![0, 1, 2])
    (x : (⟨3, ![a, b, c]⟩ : Shape).Idx → α) (i : Fin a) (j : Fin b) (k : Fin c) (u : Fin 1) :
    broadcastInDim ⟨4, ![a, b, c, 1]⟩ ![0, 1, 2] h x (ix4 i j k u) = x (ix3 i j k) := by
  refine broadcastInDim_apply _ h x (ix4 i j k u) (ix3 i j k) fun ax => ?_
  match ax with
  | ⟨0, _⟩ => exact coord_eq_ite i
  | ⟨1, _⟩ => exact coord_eq_ite j
  | ⟨2, _⟩ => exact coord_eq_ite k

/-- An `[a, b, 1]` array broadcast to `[a, b, 1, 1]` along `[0, 1, 2]` reads, at `(i, j, u, u')`, the operand at
`(i, j, 0)`, whatever the unit coordinates `u` and `u'`. -/
theorem bcast_ab1_ab11_apply {a b : ℕ} (h : (⟨3, ![a, b, 1]⟩ : Shape).BroadcastsInDim ⟨4, ![a, b, 1, 1]⟩ ![0, 1, 2])
    (x : (⟨3, ![a, b, 1]⟩ : Shape).Idx → α) (i : Fin a) (j : Fin b) (u u' : Fin 1) :
    broadcastInDim ⟨4, ![a, b, 1, 1]⟩ ![0, 1, 2] h x (ix4 i j u u') = x (ix3 i j (0 : Fin 1)) := by
  refine broadcastInDim_apply _ h x (ix4 i j u u') (ix3 i j (0 : Fin 1)) fun ax => ?_
  match ax with
  | ⟨0, _⟩ => exact coord_eq_ite i
  | ⟨1, _⟩ => exact coord_eq_ite j
  | ⟨2, _⟩ => rfl

/-! ## A unit axis stretched -/

/-- An `[a, 1, c, d]` array broadcast to `[a, b, c, d]` reads, at `(i, j, k, l)`, the operand at `(i, 0, k, l)`. -/
theorem bcast_a1cd_abcd_apply {a b c d : ℕ}
    (h : (⟨4, ![a, 1, c, d]⟩ : Shape).BroadcastsInDim ⟨4, ![a, b, c, d]⟩ ![0, 1, 2, 3])
    (x : (⟨4, ![a, 1, c, d]⟩ : Shape).Idx → α) (i : Fin a) (j : Fin b) (k : Fin c) (l : Fin d) :
    broadcastInDim ⟨4, ![a, b, c, d]⟩ ![0, 1, 2, 3] h x (ix4 i j k l) = x (ix4 i (0 : Fin 1) k l) := by
  refine broadcastInDim_apply _ h x (ix4 i j k l) (ix4 i (0 : Fin 1) k l) fun ax => ?_
  match ax with
  | ⟨0, _⟩ => exact coord_eq_ite i
  | ⟨1, _⟩ => rfl
  | ⟨2, _⟩ => exact coord_eq_ite k
  | ⟨3, _⟩ => exact coord_eq_ite l

/-- An `[a, b, 1, d]` array broadcast to `[a, b, c, d]` reads, at `(i, j, k, l)`, the operand at `(i, j, 0, l)`. -/
theorem bcast_ab1d_abcd_apply {a b c d : ℕ}
    (h : (⟨4, ![a, b, 1, d]⟩ : Shape).BroadcastsInDim ⟨4, ![a, b, c, d]⟩ ![0, 1, 2, 3])
    (x : (⟨4, ![a, b, 1, d]⟩ : Shape).Idx → α) (i : Fin a) (j : Fin b) (k : Fin c) (l : Fin d) :
    broadcastInDim ⟨4, ![a, b, c, d]⟩ ![0, 1, 2, 3] h x (ix4 i j k l) = x (ix4 i j (0 : Fin 1) l) := by
  refine broadcastInDim_apply _ h x (ix4 i j k l) (ix4 i j (0 : Fin 1) l) fun ax => ?_
  match ax with
  | ⟨0, _⟩ => exact coord_eq_ite i
  | ⟨1, _⟩ => exact coord_eq_ite j
  | ⟨2, _⟩ => rfl
  | ⟨3, _⟩ => exact coord_eq_ite l

/-- An `[a, b, c, 1]` array broadcast to `[a, b, c, d]` reads, at `(i, j, k, l)`, the operand at `(i, j, k, 0)`. -/
theorem bcast_abc1_abcd_apply {a b c d : ℕ}
    (h : (⟨4, ![a, b, c, 1]⟩ : Shape).BroadcastsInDim ⟨4, ![a, b, c, d]⟩ ![0, 1, 2, 3])
    (x : (⟨4, ![a, b, c, 1]⟩ : Shape).Idx → α) (i : Fin a) (j : Fin b) (k : Fin c) (l : Fin d) :
    broadcastInDim ⟨4, ![a, b, c, d]⟩ ![0, 1, 2, 3] h x (ix4 i j k l) = x (ix4 i j k (0 : Fin 1)) := by
  refine broadcastInDim_apply _ h x (ix4 i j k l) (ix4 i j k (0 : Fin 1)) fun ax => ?_
  match ax with
  | ⟨0, _⟩ => exact coord_eq_ite i
  | ⟨1, _⟩ => exact coord_eq_ite j
  | ⟨2, _⟩ => exact coord_eq_ite k
  | ⟨3, _⟩ => rfl

/-- An `[a, b, 1, 1]` array broadcast to `[a, b, 1, d]` reads, at `(i, j, u, l)`, the operand at `(i, j, 0, 0)`, whatever
the unit coordinate `u`. -/
theorem bcast_ab11_ab1d_apply {a b d : ℕ}
    (h : (⟨4, ![a, b, 1, 1]⟩ : Shape).BroadcastsInDim ⟨4, ![a, b, 1, d]⟩ ![0, 1, 2, 3])
    (x : (⟨4, ![a, b, 1, 1]⟩ : Shape).Idx → α) (i : Fin a) (j : Fin b) (u : Fin 1) (l : Fin d) :
    broadcastInDim ⟨4, ![a, b, 1, d]⟩ ![0, 1, 2, 3] h x (ix4 i j u l) = x (ix4 i j (0 : Fin 1) (0 : Fin 1)) := by
  refine broadcastInDim_apply _ h x (ix4 i j u l) (ix4 i j (0 : Fin 1) (0 : Fin 1)) fun ax => ?_
  match ax with
  | ⟨0, _⟩ => exact coord_eq_ite i
  | ⟨1, _⟩ => exact coord_eq_ite j
  | ⟨2, _⟩ => rfl
  | ⟨3, _⟩ => rfl

/-! ## The transpose of the two middle axes, and the squeeze of a unit axis -/

/-- An `[a, c, b, d]` array transposed by `[0, 2, 1, 3]` reads, at `(i, j, k, l)`, the operand at `(i, k, j, l)`. -/
theorem transpose_0213_apply {a b c d : ℕ} (x : (⟨4, ![a, c, b, d]⟩ : Shape).Idx → α)
    (h : (⟨4, ![a, c, b, d]⟩ : Shape).Transposes [0, 2, 1, 3] ⟨4, ![a, b, c, d]⟩)
    (i : Fin a) (j : Fin b) (k : Fin c) (l : Fin d) :
    transpose ⟨4, ![a, b, c, d]⟩ [0, 2, 1, 3] x h (ix4 i j k l) = x (ix4 i k j l) :=
  transpose_apply _ x h _ _ fun e => match e with | ⟨0, _⟩ => rfl | ⟨1, _⟩ => rfl | ⟨2, _⟩ => rfl | ⟨3, _⟩ => rfl

/-- An `[a, b, 1, d]` array cast to `[a, b, d]` reads, at `(i, j, l)`, the operand at `(i, j, 0, l)`. -/
theorem shapeCast_ab1d_abd_apply {a b d : ℕ} (x : (⟨4, ![a, b, 1, d]⟩ : Shape).Idx → α)
    (h : (⟨4, ![a, b, 1, d]⟩ : Shape).ShapeCasts ⟨3, ![a, b, d]⟩) (i : Fin a) (j : Fin b) (l : Fin d) :
    shapeCast ⟨3, ![a, b, d]⟩ x h (ix3 i j l) = x (ix4 i j (0 : Fin 1) l) :=
  shapeCast_apply x h _ _ (by
    rw [Shape.rowMajor_val_four, Shape.rowMajor_val_three]
    show ((i.val * b + j.val) * 1 + 0) * d + l.val = (i.val * b + j.val) * d + l.val
    rw [Nat.mul_one, Nat.add_zero])

/-! ## One-axis host reductions at the ideal values -/

section Reductions
variable {φ : FTy} {u : Shape}

/-- A host `reduce` with a `maximum` body over axis 1 of an `[a, b, c, d]` array reads, at `(i, k, l)`, the fold of `max`
from the initial value over the operand at `(i, j, k, l)`, `j` ranging over axis 1. -/
theorem hostMaxAxis1_apply {a b c d : ℕ} (x : FVec Ideal ⟨4, ![a, b, c, d]⟩ φ) (init : u.Idx → Ideal φ)
    (h' : (⟨4, ![a, b, c, d]⟩ : Shape).ReducesTo [1] ⟨3, ![a, c, d]⟩) (hu : 0 < u.numel)
    (i : Fin a) (k : Fin c) (l : Fin d) :
    Host.reduce FloatOps.maximumf x init h' hu (ix3 i k l)
      = (Finset.univ : Finset (Fin b)).fold max (init (Shape.Idx.first hu)) (fun j => x (ix4 i j k l)) := by
  have h : (⟨4, ![a, b, c, d]⟩ : Shape).Reduces [1] ⟨3, ![a, c, d]⟩ := ⟨h'.1, Nat.succ_pos 2, h'.2⟩
  refine (Host.reduce_eq_fold_single FloatOps.maximumf x init h' h hu (ix3 i k l)).trans ?_
  show (Finset.univ : Finset (Fin b)).fold max (init (Shape.Idx.first hu)) (fun j => x (h.lift (ix3 i k l) j)) = _
  refine congrArg (fun f => (Finset.univ : Finset (Fin b)).fold max (init (Shape.Idx.first hu)) f)
    (funext fun j => congrArg x (funext fun e => Fin.ext ?_))
  match e with
  | ⟨0, _⟩ => rfl
  | ⟨1, _⟩ => rfl
  | ⟨2, _⟩ => rfl
  | ⟨3, _⟩ => rfl

/-- A host `reduce` with an `add` body over axis 1 of an `[a, b, c, d]` array reads, at `(i, k, l)`, the initial value
plus the sum over `j` of the operand at `(i, j, k, l)`. -/
theorem hostSumAxis1_apply {a b c d : ℕ} (x : FVec Ideal ⟨4, ![a, b, c, d]⟩ φ) (init : u.Idx → Ideal φ)
    (h' : (⟨4, ![a, b, c, d]⟩ : Shape).ReducesTo [1] ⟨3, ![a, c, d]⟩) (hu : 0 < u.numel)
    (i : Fin a) (k : Fin c) (l : Fin d) :
    Host.reduceAdd x init h' hu (ix3 i k l) = init (Shape.Idx.first hu) + ∑ j : Fin b, x (ix4 i j k l) := by
  have h : (⟨4, ![a, b, c, d]⟩ : Shape).Reduces [1] ⟨3, ![a, c, d]⟩ := ⟨h'.1, Nat.succ_pos 2, h'.2⟩
  refine (Ideal.hostReduceAdd_single h' h x (init (Shape.Idx.first hu)) (ix3 i k l)).trans ?_
  show init (Shape.Idx.first hu) + ∑ j : Fin b, x (h.lift (ix3 i k l) j) = _
  refine congrArg _ (Finset.sum_congr rfl fun j _ => congrArg x (funext fun e => Fin.ext ?_))
  match e with
  | ⟨0, _⟩ => rfl
  | ⟨1, _⟩ => rfl
  | ⟨2, _⟩ => rfl
  | ⟨3, _⟩ => rfl

/-- A host `reduce` with an `add` body over axis 2 of an `[a, b, c, d]` array reads, at `(i, j, l)`, the initial value
plus the sum over `k` of the operand at `(i, j, k, l)`. -/
theorem hostSumAxis2_apply {a b c d : ℕ} (x : FVec Ideal ⟨4, ![a, b, c, d]⟩ φ) (init : u.Idx → Ideal φ)
    (h' : (⟨4, ![a, b, c, d]⟩ : Shape).ReducesTo [2] ⟨3, ![a, b, d]⟩) (hu : 0 < u.numel)
    (i : Fin a) (j : Fin b) (l : Fin d) :
    Host.reduceAdd x init h' hu (ix3 i j l) = init (Shape.Idx.first hu) + ∑ k : Fin c, x (ix4 i j k l) := by
  have h : (⟨4, ![a, b, c, d]⟩ : Shape).Reduces [2] ⟨3, ![a, b, d]⟩ := ⟨h'.1, Nat.succ_pos 2, h'.2⟩
  refine (Ideal.hostReduceAdd_single h' h x (init (Shape.Idx.first hu)) (ix3 i j l)).trans ?_
  show init (Shape.Idx.first hu) + ∑ k : Fin c, x (h.lift (ix3 i j l) k) = _
  refine congrArg _ (Finset.sum_congr rfl fun k _ => congrArg x (funext fun e => Fin.ext ?_))
  match e with
  | ⟨0, _⟩ => rfl
  | ⟨1, _⟩ => rfl
  | ⟨2, _⟩ => rfl
  | ⟨3, _⟩ => rfl

/-- A host `reduce` with an `add` body over axis 3 of an `[a, b, c, d]` array reads, at `(i, j, k)`, the initial value
plus the sum over `l` of the operand at `(i, j, k, l)`. -/
theorem hostSumAxis3_apply {a b c d : ℕ} (x : FVec Ideal ⟨4, ![a, b, c, d]⟩ φ) (init : u.Idx → Ideal φ)
    (h' : (⟨4, ![a, b, c, d]⟩ : Shape).ReducesTo [3] ⟨3, ![a, b, c]⟩) (hu : 0 < u.numel)
    (i : Fin a) (j : Fin b) (k : Fin c) :
    Host.reduceAdd x init h' hu (ix3 i j k) = init (Shape.Idx.first hu) + ∑ l : Fin d, x (ix4 i j k l) := by
  have h : (⟨4, ![a, b, c, d]⟩ : Shape).Reduces [3] ⟨3, ![a, b, c]⟩ := ⟨h'.1, Nat.succ_pos 2, h'.2⟩
  refine (Ideal.hostReduceAdd_single h' h x (init (Shape.Idx.first hu)) (ix3 i j k)).trans ?_
  show init (Shape.Idx.first hu) + ∑ l : Fin d, x (h.lift (ix3 i j k) l) = _
  refine congrArg _ (Finset.sum_congr rfl fun l _ => congrArg x (funext fun e => Fin.ext ?_))
  match e with
  | ⟨0, _⟩ => rfl
  | ⟨1, _⟩ => rfl
  | ⟨2, _⟩ => rfl
  | ⟨3, _⟩ => rfl

end Reductions

end Cert.HostAxisForms
-- ==== Proof.VotesRef.lean ====
/-
  The reference's contraction read at one entry, on extended reals.

  The reference contracts the inputs, a [32, 1152, 32] array (batch item, input capsule, input length), with the
  weight, a [64, 32, 32] array (output capsule, output coordinate, input length), over the input length (the last
  axis of both), keeping the other axes in order: the result is laid [b, n, o, l]. Its entry there is the vote of
  input capsule n of batch item b for coordinate l of output capsule o: the sum over the input length i of
  input[b, n, i] · weight[o, l, i] — the kernel's sum for row 32·o + l of the weight, with the two factors in the
  other order.
-/
import proofs.«128484_j6184752906707_1_alg».proof.ReferenceIdeal
import Idealize.ShloMosaic.Lib.ValueIdx
import Idealize.ShloMosaic.PureOps.Ideal.Laws

noncomputable section

open scoped BigOperators

namespace Cert.ReferenceIdeal.Votes

open Cert.ReferenceIdeal Idealize.ShloMosaic Idealize.ShloMosaic.ValueIdx

variable [Facts₀]

/-! ## The operand indices, axis by axis

At result index j and contraction position k the left operand is read at [j 0, j 1, k] and the right operand at
[j 2, j 3, k]: the kept axes of the left operand are the result's first two, those of the right operand its last
two, and the contracted axis of each follows k. -/

/-- The input's batch item is the result's first coordinate. -/
theorem lhs_0 (j : S32x1152x64x32.Idx) (k : dot_S32x1152x32_S64x32x32_S32x1152x64x32_2_2_01_01_n_n.contr.Idx) :
    (dot_S32x1152x32_S64x32x32_S32x1152x64x32_2_2_01_01_n_n.lhsIdx j k (0 : Fin 3)).val = (j 0).val := by
  unfold DotDims.lhsIdx
  rw [dif_neg (show ¬(0 : Fin S32x1152x32.rank) ∈ dot_S32x1152x32_S64x32x32_S32x1152x64x32_2_2_01_01_n_n.lhsBatch from List.not_mem_nil),
    dif_pos (show (0 : Fin S32x1152x32.rank) ∈ dot_S32x1152x32_S64x32x32_S32x1152x64x32_2_2_01_01_n_n.lhsNonContracting from List.mem_cons_self)]
  rfl

/-- The input's capsule is the result's second coordinate. -/
theorem lhs_1 (j : S32x1152x64x32.Idx) (k : dot_S32x1152x32_S64x32x32_S32x1152x64x32_2_2_01_01_n_n.contr.Idx) :
    (dot_S32x1152x32_S64x32x32_S32x1152x64x32_2_2_01_01_n_n.lhsIdx j k (1 : Fin 3)).val = (j 1).val := by
  unfold DotDims.lhsIdx
  rw [dif_neg (show ¬(1 : Fin S32x1152x32.rank) ∈ dot_S32x1152x32_S64x32x32_S32x1152x64x32_2_2_01_01_n_n.lhsBatch from List.not_mem_nil),
    dif_pos (show (1 : Fin S32x1152x32.rank) ∈ dot_S32x1152x32_S64x32x32_S32x1152x64x32_2_2_01_01_n_n.lhsNonContracting from
      List.mem_cons_of_mem _ List.mem_cons_self)]
  rfl

/-- The input's last coordinate is the contraction position. -/
theorem lhs_2 (j : S32x1152x64x32.Idx) (k : dot_S32x1152x32_S64x32x32_S32x1152x64x32_2_2_01_01_n_n.contr.Idx) :
    (dot_S32x1152x32_S64x32x32_S32x1152x64x32_2_2_01_01_n_n.lhsIdx j k (2 : Fin 3)).val = (k ⟨0, Nat.one_pos⟩).val :=
  dot_S32x1152x32_S64x32x32_S32x1152x64x32_2_2_01_01_n_n.lhsIdx_val_of_single rfl j k

/-- The weight's output capsule is the result's third coordinate. -/
theorem rhs_0 (j : S32x1152x64x32.Idx) (k : dot_S32x1152x32_S64x32x32_S32x1152x64x32_2_2_01_01_n_n.contr.Idx) :
    (dot_S32x1152x32_S64x32x32_S32x1152x64x32_2_2_01_01_n_n.rhsIdx j k (0 : Fin 3)).val = (j 2).val := by
  unfold DotDims.rhsIdx
  rw [dif_neg (show ¬(0 : Fin S64x32x32.rank) ∈ dot_S32x1152x32_S64x32x32_S32x1152x64x32_2_2_01_01_n_n.rhsBatch from List.not_mem_nil),
    dif_pos (show (0 : Fin S64x32x32.rank) ∈ dot_S32x1152x32_S64x32x32_S32x1152x64x32_2_2_01_01_n_n.rhsNonContracting from List.mem_cons_self)]
  rfl

/-- The weight's output coordinate is the result's fourth coordinate. -/
theorem rhs_1 (j : S32x1152x64x32.Idx) (k : dot_S32x1152x32_S64x32x32_S32x1152x64x32_2_2_01_01_n_n.contr.Idx) :
    (dot_S32x1152x32_S64x32x32_S32x1152x64x32_2_2_01_01_n_n.rhsIdx j k (1 : Fin 3)).val = (j 3).val := by
  unfold DotDims.rhsIdx
  rw [dif_neg (show ¬(1 : Fin S64x32x32.rank) ∈ dot_S32x1152x32_S64x32x32_S32x1152x64x32_2_2_01_01_n_n.rhsBatch from List.not_mem_nil),
    dif_pos (show (1 : Fin S64x32x32.rank) ∈ dot_S32x1152x32_S64x32x32_S32x1152x64x32_2_2_01_01_n_n.rhsNonContracting from
      List.mem_cons_of_mem _ List.mem_cons_self)]
  rfl

/-- The weight's last coordinate is the contraction position. -/
theorem rhs_2 (j : S32x1152x64x32.Idx) (k : dot_S32x1152x32_S64x32x32_S32x1152x64x32_2_2_01_01_n_n.contr.Idx) :
    (dot_S32x1152x32_S64x32x32_S32x1152x64x32_2_2_01_01_n_n.rhsIdx j k (2 : Fin 3)).val = (k ⟨0, Nat.one_pos⟩).val :=
  dot_S32x1152x32_S64x32x32_S32x1152x64x32_2_2_01_01_n_n.rhsIdx_val_of_single rfl j k

/-! ## The entry -/

/-- The contraction read at [b, n, o, l]: the sum over the input length of input[b, n, i] · weight[o, l, i]. -/
theorem dotGeneral_apply (x : FVec Ideal S32x1152x32 .f32) (w : FVec Ideal S64x32x32 .f32) (b : Fin 32) (n : Fin 1152) (o : Fin 64) (l : Fin 32) :
    Host.dotGeneral dot_S32x1152x32_S64x32x32_S32x1152x64x32_2_2_01_01_n_n none x w (ix4 b n o l) = ∑ i : Fin 32, x (ix3 b n i) * w (ix3 o l i) := by
  simp only [Host.dotGeneral]
  rw [Ideal.dotGeneral_apply,
    ← Equiv.sum_comp (contrEquiv1 dot_S32x1152x32_S64x32x32_S32x1152x64x32_2_2_01_01_n_n 32 rfl rfl).symm]
  refine Finset.sum_congr rfl fun k _ => ?_
  have hk := contrEquiv1_symm_val dot_S32x1152x32_S64x32x32_S32x1152x64x32_2_2_01_01_n_n 32 rfl rfl k
  have el : dot_S32x1152x32_S64x32x32_S32x1152x64x32_2_2_01_01_n_n.lhsIdx (ix4 b n o l)
      ((contrEquiv1 dot_S32x1152x32_S64x32x32_S32x1152x64x32_2_2_01_01_n_n 32 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : dot_S32x1152x32_S64x32x32_S32x1152x64x32_2_2_01_01_n_n.rhsIdx (ix4 b n o l)
      ((contrEquiv1 dot_S32x1152x32_S64x32x32_S32x1152x64x32_2_2_01_01_n_n 32 rfl rfl).symm k) = ix3 o l k :=
    funext fun a => Fin.ext (by
      match a with
      | ⟨0, _⟩ => exact rhs_0 _ _
      | ⟨1, _⟩ => exact rhs_1 _ _
      | ⟨2, _⟩ => exact (rhs_2 _ _).trans hk)
  rw [el, er]

end Cert.ReferenceIdeal.Votes
-- ==== Proof.RefRead.lean ====
/-
  The reference's array-level stages read at one entry, on extended reals.

  The reference holds every array laid [b, o, n, l] (batch item, output capsule, input capsule, output coordinate), the
  logits repeated along l, the capsules laid [b, o, 1, l] and their squared lengths [b, o, 1, 1]. Fix a batch item b.
  Each stage, read at an entry of batch item b, is the routing function of the same name at (o, n) or (o, l), given
  that its operand arrays, read at batch item b, are the functions that function takes:
    votes at [b, o, n, l] is the vote P o l n of the weight and of batch item b's input (the reference multiplies
      input by weight, the routing function weight by input: the product commutes);
    the starting logits at [b, o, n, l] are the zero logits;
    shifted at [b, o, n, l] is the shifted exponential expo L o n, when the logits array reads L o n at [b, o, n, l]
      for every l;
    capsules at [b, o, 0, l] is caps P L o l, when the votes array reads P o l n and the exponentials' array reads
      expo L o n (the reference multiplies coupling by vote, the routing function vote by coupling);
    sqLen at [b, o, 0, 0] is the squared length normSq v o, when the capsules' array reads v o l at [b, o, 0, l];
    squashed at [b, o, 0, l] is squash v o l, given the same and the squared lengths' array reading normSq v o;
    updated at [b, o, n, l] is agree P L o n, given the votes, the logits, the capsules caps P L and their squared
      lengths;
    the result at [b, o, l] is squash v o l.
  Every sum of the reference starts from the word of zero, which is the extended real 0; its maximum starts from the
  word the routing function's colMax starts from, and is set against the same word once more. Nothing is evaluated:
  every step is one layout operation or one reduction read at coordinates.
-/
import proofs.«128484_j6184752906707_1_alg».proof.Proof.Routing
import proofs.«128484_j6184752906707_1_alg».proof.Proof.RefStages
import proofs.«128484_j6184752906707_1_alg».proof.Proof.LibHostAxisForms
import proofs.«128484_j6184752906707_1_alg».proof.Proof.VotesRef

set_option maxRecDepth 8192

noncomputable section

open scoped BigOperators

namespace Cert.ReferenceIdeal.Stages

open Cert.ReferenceIdeal Cert.ReferenceIdeal.Gen Cert.ReferenceIdeal.Value Idealize.ShloMosaic Idealize.ShloMosaic.TcCoe
  Idealize.ShloMosaic.StableHlo Idealize.ShloMosaic.ValueIdx Cert.Routing Cert.HostAxisForms

/-- A sum that starts from the word of zero is the sum: the word is the extended real 0. -/
theorem zeroWord_add {u : Shape} (hu : 0 < u.numel) (s : EReal) :
    constant (F := Ideal) u .f32 0x00000000#32 (Shape.Idx.first hu) + s = s := by
  show Ideal.ofBits .f32 0x00000000#32 + s = s
  rw [Ideal.ofBits_zero_f32, zero_add]

/-- The votes at [b, o, n, l]: the contraction's entry at [b, n, o, l], its two factors in the other order. -/
theorem votes_apply (x : FVec Ideal S32x1152x32 .f32) (w : FVec Ideal S64x32x32 .f32) (b : Fin 32) (o : Fin 64) (n : Fin 1152) (l : Fin 32) :
    votes x w (ix4 b o n l) = priors (fun o l i => w (ix3 o l i)) (fun n i => x (ix3 b n i)) o l n := by
  unfold votes priors
  refine (transpose_0213_apply _ _ b o n l).trans ?_
  refine (Votes.dotGeneral_apply x w b n o l).trans ?_
  exact Finset.sum_congr rfl fun i _ => mul_comm _ _

/-- The starting logits at any entry: the word of zero. -/
theorem logits0_apply (b : Fin 32) (o : Fin 64) (n : Fin 1152) (l : Fin 32) : logits0 (F := Ideal) (ix4 b o n l) = Cert.Routing.logits0 o n := by
  unfold logits0
  exact (splat_apply _ _ _).trans rfl

/-- The shifted exponentials at [b, o, n, l]: the maximum over the output capsules, put back as a unit axis and
    stretched, is read at [b, 0, n, l], then at [b, n, l], where it is the fold of max over o' of the logits at
    [b, o', n, l], set against the initial word once more. -/
theorem shifted_apply (L : FVec Ideal S32x64x1152x32 .f32) (b : Fin 32) (Lk : Fin 64 → Fin 1152 → EReal) (hL : ∀ o n l, L (ix4 b o n l) = Lk o n) (o : Fin 64) (n : Fin 1152) (l : Fin 32) :
    shifted L (ix4 b o n l) = expo Lk o n := by
  unfold shifted expo
  refine congrArg Ideal.exp (congrArg₂ (· - ·) (hL o n l) ?_)
  refine (bcast_a1cd_abcd_apply _ _ b o n l).trans ?_
  refine (bcast_acd_a1cd_apply _ _ b 0 n l).trans ?_
  refine (maximumf_apply _ _ _).trans ?_
  unfold colMax
  refine congrArg₂ max ((splat_apply _ _ _).trans rfl) ?_
  refine (hostMaxAxis1_apply L _ _ _ b n l).trans ?_
  exact congrArg (fun f => (Finset.univ : Finset (Fin 64)).fold max negInf f) (funext fun j => hL j n l)

/-- The capsules at [b, o, u, l]: the sum over the input capsules n of coupling times vote at [b, o, n, l], the
    coupling's denominator being the sum over the output capsules o' of the exponentials at [b, o', n, l]. -/
theorem capsules_apply (P E : FVec Ideal S32x64x1152x32 .f32) (b : Fin 32) (Pk : Fin 64 → Fin 32 → Fin 1152 → EReal) (Lk : Fin 64 → Fin 1152 → EReal) (hP : ∀ o n l, P (ix4 b o n l) = Pk o l n) (hE : ∀ o n l, E (ix4 b o n l) = expo Lk o n) (o : Fin 64) (u : Fin 1) (l : Fin 32) :
    capsules P E (ix4 b o u l) = caps Pk Lk o l := by
  unfold capsules caps
  refine (bcast_abd_ab1d_apply _ _ b o u l).trans ?_
  refine (hostSumAxis2_apply _ _ _ _ b o l).trans ?_
  refine (zeroWord_add _ _).trans ?_
  refine Finset.sum_congr rfl fun k _ => ?_
  refine (mulf_apply _ _ _).trans ?_
  refine (mul_comm _ _).trans ?_
  unfold coupling
  refine congrArg₂ (· * ·) (hP o k l) (congrArg₂ Ideal.div (hE o k l) ?_)
  refine (bcast_a1cd_abcd_apply _ _ b o k l).trans ?_
  refine (bcast_acd_a1cd_apply _ _ b 0 k l).trans ?_
  refine (hostSumAxis1_apply E _ _ _ b k l).trans ?_
  refine (zeroWord_add _ _).trans ?_
  exact Finset.sum_congr rfl fun o' _ => hE o' k l

/-- The squared lengths at [b, o, u, u']: the sum over l of the squares of the capsule's coordinates at [b, o, 0, l]. -/
theorem sqLen_apply (O : FVec Ideal S32x64x1x32 .f32) (b : Fin 32) (v : Fin 64 → Fin 32 → EReal) (hO : ∀ o u l, O (ix4 b o u l) = v o l) (o : Fin 64) (u u' : Fin 1) :
    sqLen O (ix4 b o u u') = normSq v o := by
  unfold sqLen normSq
  refine (bcast_ab1_ab11_apply _ _ b o u u').trans ?_
  refine (hostSumAxis3_apply _ _ _ _ b o (0 : Fin 1)).trans ?_
  refine (zeroWord_add _ _).trans ?_
  exact Finset.sum_congr rfl fun l _ => congrArg₂ (· * ·) (hO o 0 l) (hO o 0 l)

/-- The squashed capsules at [b, o, u, l]: the capsule's coordinate times the root of its squared length, over one
    plus its squared length, both read at [b, o, 0, 0]. -/
theorem squashed_apply (O : FVec Ideal S32x64x1x32 .f32) (N : FVec Ideal S32x64x1x1 .f32) (b : Fin 32) (v : Fin 64 → Fin 32 → EReal) (hO : ∀ o u l, O (ix4 b o u l) = v o l) (hN : ∀ o u u', N (ix4 b o u u') = normSq v o) (o : Fin 64) (u : Fin 1) (l : Fin 32) :
    squashed O N (ix4 b o u l) = squash v o l := by
  unfold squashed squash
  refine congrArg₂ Ideal.div (congrArg₂ (· * ·) (hO o u l) ?_) ?_
  · refine (bcast_ab11_ab1d_apply _ _ b o u l).trans ?_
    exact congrArg Ideal.sqrt (hN o 0 0)
  · refine (bcast_ab11_ab1d_apply _ _ b o u l).trans ?_
    exact congrArg₂ (· + ·) ((splat_apply _ _ _).trans rfl) (hN o 0 0)

/-- The updated logits at [b, o, n, l]: the logit plus the sum over l' of vote times squashed capsule at
    [b, o, n, l'], the squashed capsule stretched from [b, o, 0, l']. -/
theorem updated_apply (P L : FVec Ideal S32x64x1152x32 .f32) (O : FVec Ideal S32x64x1x32 .f32) (N : FVec Ideal S32x64x1x1 .f32) (b : Fin 32) (Pk : Fin 64 → Fin 32 → Fin 1152 → EReal) (Lk : Fin 64 → Fin 1152 → EReal) (hP : ∀ o n l, P (ix4 b o n l) = Pk o l n) (hL : ∀ o n l, L (ix4 b o n l) = Lk o n) (hO : ∀ o u l, O (ix4 b o u l) = caps Pk Lk o l) (hN : ∀ o u u', N (ix4 b o u u') = normSq (caps Pk Lk) o) (o : Fin 64) (n : Fin 1152) (l : Fin 32) :
    updated P L O N (ix4 b o n l) = agree Pk Lk o n := by
  unfold updated agree
  refine congrArg₂ (· + ·) (hL o n l) ?_
  refine (bcast_abc1_abcd_apply _ _ b o n l).trans ?_
  refine (bcast_abc_abc1_apply _ _ b o n (0 : Fin 1)).trans ?_
  refine (hostSumAxis3_apply _ _ _ _ b o n).trans ?_
  refine (zeroWord_add _ _).trans ?_
  refine Finset.sum_congr rfl fun l' _ => ?_
  refine congrArg₂ (· * ·) (hP o n l') ?_
  refine (bcast_ab1d_abcd_apply _ _ b o n l').trans ?_
  exact squashed_apply O N b (caps Pk Lk) hO hN o 0 l'

/-- The result at [b, o, l]: the squashed capsules at [b, o, 0, l]. -/
theorem result_apply (O : FVec Ideal S32x64x1x32 .f32) (N : FVec Ideal S32x64x1x1 .f32) (b : Fin 32) (v : Fin 64 → Fin 32 → EReal) (hO : ∀ o u l, O (ix4 b o u l) = v o l) (hN : ∀ o u u', N (ix4 b o u u') = normSq v o) (o : Fin 64) (l : Fin 32) :
    result O N (ix3 b o l) = squash v o l := by
  unfold result
  refine (shapeCast_ab1d_abd_apply _ _ b o l).trans ?_
  exact squashed_apply O N b v hO hN o 0 l

end Cert.ReferenceIdeal.Stages

end
-- ==== Proof.RefValue.lean ====
/-
  The reference's result array is `routedAll` of its two arguments.

  The run ends with the result at the stages composed: the votes, then three rounds, each `shifted`, `capsules`,
  `sqLen` and (in the first two) `updated`, then `result` of the third round's capsules and their squared lengths.
  Fix a batch item `b`. Read at the entries of `b`, the votes are `priors` of the two arguments and the first logits are
  `logits0`; a round that starts from arrays whose entries at `b` are `P o l n` and `L o n` has its four stages read
  `expo L`, `caps P L`, `normSq (caps P L)` and `agree P L` there (one lemma, used for every round); so the third
  round's capsules read `caps P (agree P (agree P logits0))`, and the result, their squash, reads `routed P`, which
  is the entry of `routedAll`.
-/
import proofs.«128484_j6184752906707_1_alg».proof.Proof.RefRead

set_option maxRecDepth 8192

noncomputable section

namespace Cert.ReferenceIdeal.RoutValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx
open Cert.Routing

/-- One round read at the batch item `b`: from arrays whose entries there are the votes `Pk o l n` and the logits
    `Lk o n`, the shifted exponentials, the capsules, their squared lengths and the next logits read `expo Lk`,
    `caps Pk Lk`, `normSq (caps Pk Lk)` and `agree Pk Lk`. -/
theorem round (P L : FVec Ideal S32x64x1152x32 .f32) (b : Fin 32)
    (Pk : Fin 64 → Fin 32 → Fin 1152 → EReal) (Lk : Fin 64 → Fin 1152 → EReal)
    (hP : ∀ o n l, P (ix4 b o n l) = Pk o l n) (hL : ∀ o n l, L (ix4 b o n l) = Lk o n) :
    (∀ o n l, Stages.shifted L (ix4 b o n l) = expo Lk o n)
    ∧ (∀ o u l, Stages.capsules P (Stages.shifted L) (ix4 b o u l) = caps Pk Lk o l)
    ∧ (∀ o u u', Stages.sqLen (Stages.capsules P (Stages.shifted L)) (ix4 b o u u') = normSq (caps Pk Lk) o)
    ∧ (∀ o n l, Stages.updated P L (Stages.capsules P (Stages.shifted L))
          (Stages.sqLen (Stages.capsules P (Stages.shifted L))) (ix4 b o n l) = agree Pk Lk o n) := by
  have hE : ∀ o n l, Stages.shifted L (ix4 b o n l) = expo Lk o n :=
    fun o n l => Stages.shifted_apply L b Lk hL o n l
  have hO : ∀ o u l, Stages.capsules P (Stages.shifted L) (ix4 b o u l) = caps Pk Lk o l :=
    fun o u l => Stages.capsules_apply P (Stages.shifted L) b Pk Lk hP hE o u l
  have hN : ∀ o u u', Stages.sqLen (Stages.capsules P (Stages.shifted L)) (ix4 b o u u') = normSq (caps Pk Lk) o :=
    fun o u u' => Stages.sqLen_apply (Stages.capsules P (Stages.shifted L)) b (caps Pk Lk) hO o u u'
  exact ⟨hE, hO, hN, fun o n l => Stages.updated_apply P L _ _ b Pk Lk hP hL hO hN o n l⟩

/-- The composed stages read at an entry: three rounds from `logits0` over the votes of batch item `b`. -/
theorem entry (V0 : Valuation τ sig (Elt Ideal)) (b : Fin 32) (o : Fin 64) (l : Fin 32) :
    Stages.result (res_main_v76 V0) (res_main_v79 V0) (ix3 b o l)
      = routed (priors (fun o l i => (V0 (Proc.devRef .tc main_arg1) : FVec Ideal S64x32x32 .f32) (ix3 o l i))
          (fun n i => (V0 (Proc.devRef .tc main_arg0) : FVec Ideal S32x1152x32 .f32) (ix3 b n i))) o l := by
  -- the votes and the first logits
  have hP : ∀ o n l, (res_main_v1 V0 : FVec Ideal S32x64x1152x32 .f32) (ix4 b o n l)
      = priors (fun o l i => (V0 (Proc.devRef .tc main_arg1) : FVec Ideal S64x32x32 .f32) (ix3 o l i))
          (fun n i => (V0 (Proc.devRef .tc main_arg0) : FVec Ideal S32x1152x32 .f32) (ix3 b n i)) o l n :=
    fun o n l => by rw [Stages.v1_eq]; exact Stages.votes_apply _ _ b o n l
  have hL0 : ∀ o n l, (res_main_v2 V0 : FVec Ideal S32x64x1152x32 .f32) (ix4 b o n l) = Cert.Routing.logits0 o n :=
    fun o n l => by rw [Stages.v2_eq]; exact Stages.logits0_apply b o n l
  -- the first round
  have h1 := round _ _ b _ _ hP hL0
  have hL1 : ∀ o n l, (res_main_v32 V0 : FVec Ideal S32x64x1152x32 .f32) (ix4 b o n l) = agree _ Cert.Routing.logits0 o n :=
    fun o n l => by rw [Stages.v32_eq, Stages.v19_eq, Stages.v16_eq, Stages.v9_eq]; exact h1.2.2.2 o n l
  -- the second round
  have h2 := round _ _ b _ _ hP hL1
  have hL2 : ∀ o n l, (res_main_v62 V0 : FVec Ideal S32x64x1152x32 .f32) (ix4 b o n l)
      = agree _ (agree _ Cert.Routing.logits0) o n :=
    fun o n l => by rw [Stages.v62_eq, Stages.v49_eq, Stages.v46_eq, Stages.v39_eq]; exact h2.2.2.2 o n l
  -- the third round's capsules and squared lengths, then their squash
  have h3 := round _ _ b _ _ hP hL2
  have hO3 : ∀ o u l, (res_main_v76 V0 : FVec Ideal S32x64x1x32 .f32) (ix4 b o u l)
      = caps _ (agree _ (agree _ Cert.Routing.logits0)) o l :=
    fun o u l => by rw [Stages.v76_eq, Stages.v69_eq]; exact h3.2.1 o u l
  have hN3 : ∀ o u u', (res_main_v79 V0 : FVec Ideal S32x64x1x1 .f32) (ix4 b o u u')
      = normSq (caps _ (agree _ (agree _ Cert.Routing.logits0))) o :=
    fun o u u' => by rw [Stages.v79_eq, Stages.v76_eq, Stages.v69_eq]; exact h3.2.2.1 o u u'
  exact Stages.result_apply _ _ b _ hO3 hN3 o l

/-- The run's result term is `routedAll` of the two arguments' launch contents. -/
theorem value_eq (m : (ℓ : Loc nD τ sig) → Buf (Elt Ideal) ℓ) (c : Dev nD) :
    Stages.result (res_main_v76 (launchContents m c)) (res_main_v79 (launchContents m c))
      = routedAll (m ((c.tc : Thread nD τ).loc main_arg0)) (m ((c.tc : Thread nD τ).loc main_arg1)) := by
  funext j
  obtain ⟨b, o, l, rfl⟩ : ∃ b o l, j = ix3 b o l := ⟨j 0, j 1, j 2, eq_ix3 j⟩
  rw [routedAll_apply]
  exact entry (launchContents m c) b o l

/-- On every device every weakly fair execution of the reference ends with its result at `routedAll` of the
    arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87) = Cert.Routing.routedAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq m c), (h c).2⟩) (Cert.ReferenceIdeal.Value.run (F := Ideal) m ρ)

end Cert.ReferenceIdeal.RoutValue

end
-- ==== Proof.lean ====
/-
  The certificate of the capsule-routing kernel against its jnp reference: `Cert.Claim`.

  Both programs take `x : [32, 1152, 32]` and `weight : [64, 32, 32]` and return the [32, 64, 32] array of squashed output
  capsules after three rounds of dynamic routing. For each batch item the votes are `P o l n = ∑ i, weight o l i · x n i`;
  a round takes the softmax of the logits over the output capsules, sums the votes against the couplings over the input
  capsules, squashes each capsule `v ↦ v · ‖v‖ / (1 + ‖v‖²)`, and adds each vote's inner product with the squashed capsule
  to its logit (Proof/Routing.lean: `routedAll`). The kernel does this one batch item per grid point with arrays laid
  [o, l, n]; the reference does all batch items at once with arrays laid [b, o, n, l] and the logits repeated along `l`.
  At the ideal values both result arrays are `routedAll x weight` index by index: the sums are the same sums over the same
  coordinates, the maxima the same folds, and two products are taken in the other order (commutativity of the product on
  the extended reals); no step needs the inputs finite.

  The frames: the kernel's and the idealized kernel's are the generated frame certificates; the reference's is its generated
  run with the result dropped. `preserves` is `True` (the ideal pass rewrote no operation). `algebraic`: the kernel's run
  (Proof/KernelValue.lean, over the stages read in Proof/KernelRead.lean) and the reference's run (Proof/RefValue.lean, over
  Proof/RefRead.lean) end at the same function of arguments that agree.
-/
import proofs.«128484_j6184752906707_1_alg».proof.Defs
import proofs.«128484_j6184752906707_1_alg».proof.Proof.Gen.Kernel
import proofs.«128484_j6184752906707_1_alg».proof.Proof.Gen.Kernel.Skeleton
import proofs.«128484_j6184752906707_1_alg».proof.Proof.Gen.Kernel.Launch
import proofs.«128484_j6184752906707_1_alg».proof.Proof.Gen.Kernel.Points
import proofs.«128484_j6184752906707_1_alg».proof.Proof.Gen.Kernel.Frame
import proofs.«128484_j6184752906707_1_alg».proof.Proof.Gen.KernelIdeal
import proofs.«128484_j6184752906707_1_alg».proof.Proof.Gen.KernelIdeal.Skeleton
import proofs.«128484_j6184752906707_1_alg».proof.Proof.Gen.KernelIdeal.Launch
import proofs.«128484_j6184752906707_1_alg».proof.Proof.Gen.KernelIdeal.Points
import proofs.«128484_j6184752906707_1_alg».proof.Proof.Gen.KernelIdeal.Frame
import proofs.«128484_j6184752906707_1_alg».proof.Proof.Gen.ReferenceIdeal
import proofs.«128484_j6184752906707_1_alg».proof.Proof.Gen.Pre_finite_inputs
import proofs.«128484_j6184752906707_1_alg».proof.Proof.Gen.ReferenceIdeal.Run
import proofs.«128484_j6184752906707_1_alg».proof.Proof.KernelValue
import proofs.«128484_j6184752906707_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end their result array at `routedAll` of their own arguments; the arguments agree. -/
theorem algebraic : Cert.algebraic_KernelIdeal_ReferenceIdeal := by
  intro m ρ m' ρ' _ hagree
  refine ⟨_, Cert.KernelIdeal.RoutValue.run m ρ, ?_⟩
  refine (θ_run Cert.ReferenceIdeal.defs _ _).mono (fun _ h c => ⟨(h c).1.trans ?_, (h c).2⟩)
    (Cert.ReferenceIdeal.RoutValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
